-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S256 : Shape := ⟨1, ![256]⟩
abbrev S256x512 : Shape := ⟨2, ![256, 512]⟩
abbrev S2x256 : Shape := ⟨2, ![2, 256]⟩
abbrev S2 : Shape := ⟨1, ![2]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_
  bcast_S_S2x256 : S_.BroadcastsInDim S2x256 (![] : Fin 0 → Fin S2x256.rank)
  reducesTo_S2x256_S_d0_1 : S2x256.ReducesTo [0, 1] S_
  bcast_S_S2 : S_.BroadcastsInDim S2 (![] : Fin 0 → Fin S2.rank)
  reducesTo_S2_S_d0 : S2.ReducesTo [0] S_

variable [Facts]

def fn_part5 {F : FTy → Type} [FloatOps F] (main_v83 : IVec S_ 1) (main_v84 : FVec F S2 .f32) (main_cst_32 : FVec F S_ .f32) : IVec S_ 1 :=
  let main_v85 : FVec F S2 .f32 := broadcastInDim S2 ![] bcast_S_S2 main_cst_32
  let main_v86 : IVec S2 1 := cmpf .olt main_v84 main_v85
  let main_c_33 : IVec S_ 1 := constantI S_ 1 1#1
  let main_v87 : IVec S_ 1 := (fun x v => Host.reduce IntOp.andi x v reducesTo_S2_S_d0 h_S_) main_v86 main_c_33
  let main_v88 : IVec S_ 1 := andi main_v83 main_v87
  main_v88

def fn_part4 {F : FTy → Type} [FloatOps F] (main_arg14 : FVec F S256 .f32) (main_arg15 : FVec F S256 .f32) (main_arg16 : FVec F S2x256 .f32) (main_arg17 : FVec F S2 .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256 .f32 := Host.absf main_arg15
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S2x256 .f32 := Host.absf main_arg16
  let main_cst_30 : FVec F S_ .f32 := constant S_ .f32 0x7F800000#32
  let main_v80 : FVec F S2x256 .f32 := broadcastInDim S2x256 ![] bcast_S_S2x256 main_cst_30
  let main_v81 : IVec S2x256 1 := cmpf .olt main_v79 main_v80
  let main_c_31 : IVec S_ 1 := constantI S_ 1 1#1
  let main_v82 : IVec S_ 1 := (fun x v => Host.reduce IntOp.andi x v reducesTo_S2x256_S_d0_1 h_S_) main_v81 main_c_31
  let main_v83 : IVec S_ 1 := andi main_v78 main_v82
  let main_v84 : FVec F S2 .f32 := Host.absf main_arg17
  let main_cst_32 : FVec F S_ .f32 := constant S_ .f32 0x7F800000#32
  fn_part5 (F := F) main_v83 main_v84 main_cst_32

def fn_part3 {F : FTy → Type} [FloatOps F] (main_arg11 : FVec F S256 .f32) (main_arg12 : FVec F S256 .f32) (main_arg13 : FVec F S256 .f32) (main_arg14 : FVec F S256 .f32) (main_arg15 : FVec F S256 .f32) (main_arg16 : FVec F S2x256 .f32) (main_arg17 : FVec F S2 .f32) (main_v48 : IVec S_ 1) (main_v49 : FVec F S256x512 .f32) (main_v50 : FVec F S256x512 .f32) : IVec S_ 1 :=
  let main_v51 : IVec S256x512 1 := cmpf .olt main_v49 main_v50
  let main_c_19 : IVec S_ 1 := constantI S_ 1 1#1
  let main_v52 : IVec S_ 1 := (fun x v => Host.reduce IntOp.andi x v reducesTo_S256x512_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_arg16 main_arg17 main_v63 main_v67

def fn_part2 {F : FTy → Type} [FloatOps F] (main_arg7 : FVec F S256 .f32) (main_arg8 : FVec F S256 .f32) (main_arg9 : FVec F S256 .f32) (main_arg10 : FVec F S256x512 .f32) (main_arg11 : FVec F S256 .f32) (main_arg12 : FVec F S256 .f32) (main_arg13 : FVec F S256 .f32) (main_arg14 : FVec F S256 .f32) (main_arg15 : FVec F S256 .f32) (main_arg16 : FVec F S2x256 .f32) (main_arg17 : FVec F S2 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x512 .f32 := Host.absf main_arg10
  let main_cst_18 : FVec F S_ .f32 := constant S_ .f32 0x7F800000#32
  let main_v50 : FVec F S256x512 .f32 := broadcastInDim S256x512 ![] bcast_S_S256x512 main_cst_18
  fn_part3 (F := F) main_arg11 main_arg12 main_arg13 main_arg14 main_arg15 main_arg16 main_arg17 main_v48 main_v49 main_v50

def fn_part1 {F : FTy → Type} [FloatOps F] (main_arg4 : FVec F S256 .f32) (main_arg5 : FVec F S256 .f32) (main_arg6 : FVec F S256 .f32) (main_arg7 : FVec F S256 .f32) (main_arg8 : FVec F S256 .f32) (main_arg9 : FVec F S256 .f32) (main_arg10 : FVec F S256x512 .f32) (main_arg11 : FVec F S256 .f32) (main_arg12 : FVec F S256 .f32) (main_arg13 : FVec F S256 .f32) (main_arg14 : FVec F S256 .f32) (main_arg15 : FVec F S256 .f32) (main_arg16 : FVec F S2x256 .f32) (main_arg17 : FVec F S2 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S131072x256 .f32) (main_arg1 : FVec F S131072x256 .f32) (main_arg2 : FVec F S256 .f32) (main_arg3 : FVec F S256 .f32) (main_arg4 : FVec F S256 .f32) (main_arg5 : FVec F S256 .f32) (main_arg6 : FVec F S256 .f32) (main_arg7 : FVec F S256 .f32) (main_arg8 : FVec F S256 .f32) (main_arg9 : FVec F S256 .f32) (main_arg10 : FVec F S256x512 .f32) (main_arg11 : FVec F S256 .f32) (main_arg12 : FVec F S256 .f32) (main_arg13 : FVec F S256 .f32) (main_arg14 : FVec F S256 .f32) (main_arg15 : FVec F S256 .f32) (main_arg16 : FVec F S2x256 .f32) (main_arg17 : FVec F S2 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S131072x256 .f32 := Host.absf main_arg1
  let main_cst_0 : FVec F S_ .f32 := constant S_ .f32 0x7F800000#32
  let main_v5 : FVec F S131072x256 .f32 := broadcastInDim S131072x256 ![] bcast_S_S131072x256 main_cst_0
  let main_v6 : IVec S131072x256 1 := cmpf .olt main_v4 main_v5
  let main_c_1 : IVec S_ 1 := constantI S_ 1 1#1
  let main_v7 : IVec S_ 1 := (fun x v => Host.reduce IntOp.andi x v reducesTo_S131072x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S131072x256 : Shape := ⟨2, ![131072, 256]⟩
abbrev S256 : Shape := ⟨1, ![256]⟩
abbrev S256x512 : Shape := ⟨2, ![256, 512]⟩
abbrev S2x256 : Shape := ⟨2, ![2, 256]⟩
abbrev S2 : Shape := ⟨1, ![2]⟩
abbrev S1x256 : Shape := ⟨2, ![1, 256]⟩
abbrev S512x256 : Shape := ⟨2, ![512, 256]⟩
abbrev S256x2 : Shape := ⟨2, ![256, 2]⟩
abbrev S1x2 : Shape := ⟨2, ![1, 2]⟩
abbrev S131072x2 : Shape := ⟨2, ![131072, 2]⟩
abbrev S1024x256 : Shape := ⟨2, ![1024, 256]⟩
abbrev S1024x2 : Shape := ⟨2, ![1024, 2]⟩
abbrev S1024x512 : Shape := ⟨2, ![1024, 512]⟩

abbrev nBuf : Space → Nat
  | .hbm => 37
  | .vmem => 23
  | .smem => 0
  | _ => 0

abbrev bufTy : (tb : Table) → Fin (tcTables nBuf tb) → BufTy
  | .hbm, ⟨0, _⟩ => ⟨S131072x256, .f32⟩
  | .hbm, ⟨1, _⟩ => ⟨S131072x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256x512, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S256, .f32⟩
  | .hbm, ⟨16, _⟩ => ⟨S2x256, .f32⟩
  | .hbm, ⟨17, _⟩ => ⟨S2, .f32⟩
  | .hbm, ⟨18, _⟩ => ⟨S2, .f32⟩
  | .hbm, ⟨19, _⟩ => ⟨S1x256, .f32⟩
  | .hbm, ⟨20, _⟩ => ⟨S1x256, .f32⟩
  | .hbm, ⟨21, _⟩ => ⟨S1x256, .f32⟩
  | .hbm, ⟨22, _⟩ => ⟨S1x256, .f32⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S1x256, .f32⟩
  | .hbm, ⟨27, _⟩ => ⟨S1x256, .f32⟩
  | .hbm, ⟨28, _⟩ => ⟨S1x256, .f32⟩
  | .hbm, ⟨29, _⟩ => ⟨S1x256, .f32⟩
  | .hbm, ⟨30, _⟩ => ⟨S1x256, .f32⟩
  | .hbm, ⟨31, _⟩ => ⟨S512x256, .f32⟩
  | .hbm, ⟨32, _⟩ => ⟨S1x256, .f32⟩
  | .hbm, ⟨33, _⟩ => ⟨S256x2, .f32⟩
  | .hbm, ⟨34, _⟩ => ⟨S1x2, .f32⟩
  | .hbm, ⟨35, _⟩ => ⟨S1x2, .f32⟩
  | .hbm, ⟨36, _⟩ => ⟨S131072x2, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S512x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S256x2, .f32⟩
  | .local _ .vmem, ⟨19, _⟩ => ⟨S1x2, .f32⟩
  | .local _ .vmem, ⟨20, _⟩ => ⟨S1x2, .f32⟩
  | .local _ .vmem, ⟨21, _⟩ => ⟨S1024x2, .f32⟩
  | .local _ .vmem, ⟨22, _⟩ => ⟨S1024x2, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg19_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem19_1 : DmaSem sig := 22

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x2 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x2 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x2 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S1024x2 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

class Facts₀ : Prop where
  shapeCasts_S256_S1x256 : S256.ShapeCasts S1x256
  transposes_S256x512_S512x256_1_0 : S256x512.Transposes [1, 0] S512x256
  transposes_S2x256_S256x2_1_0 : S2x256.Transposes [1, 0] S256x2
  shapeCasts_S2_S1x2 : S2.ShapeCasts S1x2
  inb_S1024x256_S1024x256_0_0 : ∀ a, (![0, 0] : Fin 2 → Nat) a + S1024x256.size a ≤ S1024x256.size a
  h_S1024x256 : 0 < S1024x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  concatenates_S1024x256_S1024x256_S1024x512_d1 : Shape.Concatenates [S1024x256, S1024x256] S1024x512 1
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256x2_S256x2_0_0 : ∀ a, (![0, 0] : Fin 2 → Nat) a + S256x2.size a ≤ S256x2.size a
  h_S256x2 : 0 < S256x2.numel
  shapeCasts_S256x2_S256x2 : S256x2.ShapeCasts S256x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S1024x2 : S1x2.Broadcasts S1024x2
  inb_S1024x2_S1024x2_0_0 : ∀ a, (![0, 0] : Fin 2 → Nat) a + S1024x2.size a ≤ S1024x2.size a
  h_S1024x2 : 0 < S1024x2.numel
  dot_S1024x512_S512x256_S1024x256_1_0_0_1_n_n_wf : DotDims.WF S1024x512 S512x256 S1024x256 [1] [0] [0] [1] [] []
  dot_S1024x256_S256x2_S1024x2_1_0_0_1_n_n_wf : DotDims.WF S1024x256 S256x2 S1024x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S131072x256.size a
  hwx0_0 : ∀ i : grid0.Coords, EltTy.bits .f32 = 32 ∨ (Rect.block (s := S131072x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S131072x256.size a
  hwx0_1 : ∀ i : grid0.Coords, EltTy.bits .f32 = 32 ∨ (Rect.block (s := S131072x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x256.size a ≤ S512x256.size a
  hwx0_10 : ∀ i : grid0.Coords, EltTy.bits .f32 = 32 ∨ (Rect.block (s := S512x256) S512x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x256.size a
  hwx0_11 : ∀ i : grid0.Coords, EltTy.bits .f32 = 32 ∨ (Rect.block (s := S1x256) S1x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x256.size a
  hwx0_12 : ∀ i : grid0.Coords, EltTy.bits .f32 = 32 ∨ (Rect.block (s := S1x256) S1x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x256.size a
  hwx0_13 : ∀ i : grid0.Coords, EltTy.bits .f32 = 32 ∨ (Rect.block (s := S1x256) S1x256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x256.size a ≤ S1x256.size a
  hwx0_14 : ∀ i : grid0.Coords, EltTy.bits .f32 = 32 ∨ (Rect.block (s := S1x256) S1x256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x256.size a ≤ S1x256.size a
  hwx0_15 : ∀ i : grid0.Coords, EltTy.bits .f32 = 32 ∨ (Rect.block (s := S1x256) S1x256.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S256x2.size a ≤ S256x2.size a
  hwx0_16 : ∀ i : grid0.Coords, EltTy.bits .f32 = 32 ∨ (Rect.block (s := S256x2) S256x2.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x2.size a ≤ S1x2.size a
  hwx0_17 : ∀ i : grid0.Coords, EltTy.bits .f32 = 32 ∨ (Rect.block (s := S1x2) S1x2.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x2.size a ≤ S1x2.size a
  hwx0_18 : ∀ i : grid0.Coords, EltTy.bits .f32 = 32 ∨ (Rect.block (s := S1x2) S1x2.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S1024x2.size a ≤ S131072x2.size a
  hwx0_19 : ∀ i : grid0.Coords, EltTy.bits .f32 = 32 ∨ (Rect.block (s := S131072x2) S1024x2.size (cc0_transform_19 i) (hinb0_19 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x2_S1024x2_1_0_0_1_n_n : DotDims S1024x256 S256x2 S1024x2 where
  lhsContracting := [1]
  rhsContracting := [0]
  lhsNonContracting := [0]
  rhsNonContracting := [1]
  lhsBatch := []
  rhsBatch := []
  wf := dot_S1024x256_S256x2_S1024x2_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v12) S512x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v13) S1x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v8) S1x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v9) S1x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v10) S1x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v11) S1x256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v14) S256x2.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v15) S1x2.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v16) S1x2.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v17) S1024x2.size cc0_transform_19 reads0_19 true false 2 stage0_19 sem0_19
    hrank0 hreads0_19 hinb0_19 nbuf0_19 (Memref.isWhole_whole _) hwx0_19 hstage0_19

abbrev win0 : Fin 20 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | ⟨_ + 20, h⟩ => absurd h (Nat.not_lt.2 (Nat.le_add_left _ _))
abbrev spec0 : Fin 20 → Pipeline.WinSpec sig grid0.rank := fun w => (win0 w).toWinSpec

class Facts : Prop extends Facts₀ where

variable [Facts]
-- ==== ReferenceIdeal.lean ====
abbrev S131072x256 : Shape := ⟨2, ![131072, 256]⟩
abbrev S256 : Shape := ⟨1, ![256]⟩
abbrev S256x512 : Shape := ⟨2, ![256, 512]⟩
abbrev S2x256 : Shape := ⟨2, ![2, 256]⟩
abbrev S2 : Shape := ⟨1, ![2]⟩
abbrev S1x256 : Shape := ⟨2, ![1, 256]⟩
abbrev S_ : Shape := ⟨0, ![]⟩
abbrev S131072x512 : Shape := ⟨2, ![131072, 512]⟩
abbrev S512x256 : Shape := ⟨2, ![512, 256]⟩
abbrev S256x2 : Shape := ⟨2, ![256, 2]⟩
abbrev S131072x2 : Shape := ⟨2, ![131072, 2]⟩
abbrev S1x2 : Shape := ⟨2, ![1, 2]⟩

abbrev nBuf : Space → Nat
  | .hbm => 93
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S131072x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256x512, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S256, .f32⟩
  | .hbm, ⟨16, _⟩ => ⟨S2x256, .f32⟩
  | .hbm, ⟨17, _⟩ => ⟨S2, .f32⟩
  | .hbm, ⟨18, _⟩ => ⟨S2, .f32⟩
  | .hbm, ⟨19, _⟩ => ⟨S1x256, .f32⟩
  | .hbm, ⟨20, _⟩ => ⟨S131072x256, .f32⟩
  | .hbm, ⟨21, _⟩ => ⟨S131072x256, .f32⟩
  | .hbm, ⟨22, _⟩ => ⟨S1x256, .f32⟩
  | .hbm, ⟨23, _⟩ => ⟨S131072x256, .f32⟩
  | .hbm, ⟨24, _⟩ => ⟨S131072x256, .f32⟩
  | .hbm, ⟨25, _⟩ => ⟨S_, .f32⟩
  | .hbm, ⟨26, _⟩ => ⟨S256, .f32⟩
  | .hbm, ⟨27, _⟩ => ⟨S256, .f32⟩
  | .hbm, ⟨28, _⟩ => ⟨S256, .f32⟩
  | .hbm, ⟨29, _⟩ => ⟨S1x256, .f32⟩
  | .hbm, ⟨30, _⟩ => ⟨S131072x256, .f32⟩
  | .hbm, ⟨31, _⟩ => ⟨S131072x256, .f32⟩
  | .hbm, ⟨32, _⟩ => ⟨S1x256, .f32⟩
  | .hbm, ⟨33, _⟩ => ⟨S131072x256, .f32⟩
  | .hbm, ⟨34, _⟩ => ⟨S131072x256, .f32⟩
  | .hbm, ⟨35, _⟩ => ⟨S_, .f32⟩
  | .hbm, ⟨36, _⟩ => ⟨S131072x256, .f32⟩
  | .hbm, ⟨37, _⟩ => ⟨S131072x256, .f32⟩
  | .hbm, ⟨38, _⟩ => ⟨S1x256, .f32⟩
  | .hbm, ⟨39, _⟩ => ⟨S131072x256, .f32⟩
  | .hbm, ⟨40, _⟩ => ⟨S131072x256, .f32⟩
  | .hbm, ⟨41, _⟩ => ⟨S1x256, .f32⟩
  | .hbm, ⟨42, _⟩ => ⟨S131072x256, .f32⟩
  | .hbm, ⟨43, _⟩ => ⟨S131072x256, .f32⟩
  | .hbm, ⟨44, _⟩ => ⟨S_, .f32⟩
  | .hbm, ⟨45, _⟩ => ⟨S256, .f32⟩
  | .hbm, ⟨46, _⟩ => ⟨S256, .f32⟩
  | .hbm, ⟨47, _⟩ => ⟨S256, .f32⟩
  | .hbm, ⟨48, _⟩ => ⟨S1x256, .f32⟩
  | .hbm, ⟨49, _⟩ => ⟨S131072x256, .f32⟩
  | .hbm, ⟨50, _⟩ => ⟨S131072x256, .f32⟩
  | .hbm, ⟨51, _⟩ => ⟨S1x256, .f32⟩
  | .hbm, ⟨52, _⟩ => ⟨S131072x256, .f32⟩
  | .hbm, ⟨53, _⟩ => ⟨S131072x256, .f32⟩
  | .hbm, ⟨54, _⟩ => ⟨S_, .f32⟩
  | .hbm, ⟨55, _⟩ => ⟨S131072x256, .f32⟩
  | .hbm, ⟨56, _⟩ => ⟨S131072x256, .f32⟩
  | .hbm, ⟨57, _⟩ => ⟨S131072x512, .f32⟩
  | .hbm, ⟨58, _⟩ => ⟨S512x256, .f32⟩
  | .hbm, ⟨59, _⟩ => ⟨S131072x256, .f32⟩
  | .hbm, ⟨60, _⟩ => ⟨S1x256, .f32⟩
  | .hbm, ⟨61, _⟩ => ⟨S131072x256, .f32⟩
  | .hbm, ⟨62, _⟩ => ⟨S131072x256, .f32⟩
  | .hbm, ⟨63, _⟩ => ⟨S1x256, .f32⟩
  | .hbm, ⟨64, _⟩ => ⟨S131072x256, .f32⟩
  | .hbm, ⟨65, _⟩ => ⟨S131072x256, .f32⟩
  | .hbm, ⟨66, _⟩ => ⟨S1x256, .f32⟩
  | .hbm, ⟨67, _⟩ => ⟨S131072x256, .f32⟩
  | .hbm, ⟨68, _⟩ => ⟨S131072x256, .f32⟩
  | .hbm, ⟨69, _⟩ => ⟨S_, .f32⟩
  | .hbm, ⟨70, _⟩ => ⟨S256, .f32⟩
  | .hbm, ⟨71, _⟩ => ⟨S256, .f32⟩
  | .hbm, ⟨72, _⟩ => ⟨S256, .f32⟩
  | .hbm, ⟨73, _⟩ => ⟨S1x256, .f32⟩
  | .hbm, ⟨74, _⟩ => ⟨S131072x256, .f32⟩
  | .hbm, ⟨75, _⟩ => ⟨S131072x256, .f32⟩
  | .hbm, ⟨76, _⟩ => ⟨S1x256, .f32⟩
  | .hbm, ⟨77, _⟩ => ⟨S131072x256, .f32⟩
  | .hbm, ⟨78, _⟩ => ⟨S131072x256, .f32⟩
  | .hbm, ⟨79, _⟩ => ⟨S_, .f32⟩
  | .hbm, ⟨80, _⟩ => ⟨S131072x256, .f32⟩
  | .hbm, ⟨81, _⟩ => ⟨S131072x256, .f32⟩
  | .hbm, ⟨82, _⟩ => ⟨S256x2, .f32⟩
  | .hbm, ⟨83, _⟩ => ⟨S131072x2, .f32⟩
  | .hbm, ⟨84, _⟩ => ⟨S1x2, .f32⟩
  | .hbm, ⟨85, _⟩ => ⟨S131072x2, .f32⟩
  | .hbm, ⟨86, _⟩ => ⟨S131072x2, .f32⟩
  | .hbm, ⟨87, _⟩ => ⟨S_, .f32⟩
  | .hbm, ⟨88, _⟩ => ⟨S131072x2, .f32⟩
  | .hbm, ⟨89, _⟩ => ⟨S131072x2, .f32⟩
  | .hbm, ⟨90, _⟩ => ⟨S1x2, .f32⟩
  | .hbm, ⟨91, _⟩ => ⟨S131072x2, .f32⟩
  | .hbm, ⟨92, _⟩ => ⟨S131072x2, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_cst_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_call0_cst : Ref sig .tc := ⟨.hbm, 35, rfl⟩
abbrev main_call0_v0 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_1 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_call1_cst : Ref sig .tc := ⟨.hbm, 54, rfl⟩
abbrev main_call1_v0 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_2 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_call2_cst : Ref sig .tc := ⟨.hbm, 79, rfl⟩
abbrev main_call2_v0 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_call3_cst : Ref sig .tc := ⟨.hbm, 87, rfl⟩
abbrev main_call3_v0 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  bcast_S_S256 : S_.BroadcastsInDim S256 (![] : Fin 0 → Fin S256.rank)
  bcast_S_S131072x256 : S_.BroadcastsInDim S131072x256 (![] : Fin 0 → Fin S131072x256.rank)
  concatenates_S131072x256_S131072x256_S131072x512_d1 : Shape.Concatenates [S131072x256, S131072x256] S131072x512 1
  transposes_S256x512_S512x256_1_0 : S256x512.Transposes [1, 0] S512x256
  transposes_S2x256_S256x2_1_0 : S2x256.Transposes [1, 0] S256x2
  bcast_S2_S1x2_1 : S2.BroadcastsInDim S1x2 (![1] : Fin 1 → Fin S1x2.rank)
  bcast_S1x2_S131072x2_0_1 : S1x2.BroadcastsInDim S131072x2 (![0, 1] : Fin 2 → Fin S131072x2.rank)
  bcast_S_S131072x2 : S_.BroadcastsInDim S131072x2 (![] : Fin 0 → Fin S131072x2.rank)
  dot_S131072x512_S512x256_S131072x256_1_0_0_1_n_n_wf : DotDims.WF S131072x512 S512x256 S131072x256 [1] [0] [0] [1] [] []
  dot_S131072x256_S256x2_S131072x2_1_0_0_1_n_n_wf : DotDims.WF S131072x256 S256x2 S131072x2 [1] [0] [0] [1] [] []

variable [Facts₀]

def dot_S131072x512_S512x256_S131072x256_1_0_0_1_n_n : DotDims S131072x512 S512x256 S131072x256 where
  lhsContracting := [1]
  rhsContracting := [0]
  lhsNonContracting := [0]
  rhsNonContracting := [1]
  lhsBatch := []
  rhsBatch := []
  wf := dot_S131072x512_S512x256_S131072x256_1_0_0_1_n_n_wf
def dot_S131072x256_S256x2_S131072x2_1_0_0_1_n_n : DotDims S131072x256 S256x2 S131072x2 where
  lhsContracting := [1]
  rhsContracting := [0]
  lhsNonContracting := [0]
  rhsNonContracting := [1]
  lhsBatch := []
  rhsBatch := []
  wf := dot_S131072x256_S256x2_S131072x2_1_0_0_1_n_n_wf

class Facts : Prop extends Facts₀ where

variable [Facts]
-- ==== Proof.Spec.lean ====
/-
  The function both programs compute, one output row at a time.

  An input row is two vectors of 256 entries (a frame feature and an inertial feature).  Each is
  batch-normalised with its own per-column parameters and rectified,
      bnrelu g b μ v x = max (g · (x − μ) · rsqrt (v + ε) + b) 0,
  the two rectified vectors are laid side by side (frame columns first) into 512 entries, a dense
  layer with weights `W0 : 256 × 512` and bias `b0` follows, its 256 outputs are normalised and
  rectified the same way, and a second dense layer with weights `W1 : 2 × 256` and bias `b1`,
  rectified and capped from above by a per-coordinate constant, gives the row's two outputs.
  Nothing here mentions a program: the parameters are plain functions of a column.
-/
import Idealize.ShloMosaic.PureOps.Ideal
import Idealize.ShloMosaic.Lib.ValueIdx

noncomputable section

namespace Cert.Spec

open Idealize.ShloMosaic

/-- The ε added to a variance: the binary value both programs print. -/
def eps : EReal := Ideal.ofBits .f32 0x3727C5AC#32

/-- The zero both programs rectify against, as the word they print. -/
def zero : EReal := Ideal.ofBits .f32 0x00000000#32

/-- One batch-normalised, rectified entry. -/
def bnrelu (g b mu v x : EReal) : EReal := max (g * (x - mu) * Ideal.rsqrt (v + eps) + b) zero

/-- The per-column parameters of the three normalisations and the two dense layers. -/
structure Params where
  fg : Fin 256 → EReal
  fb : Fin 256 → EReal
  fm : Fin 256 → EReal
  fv : Fin 256 → EReal
  ig : Fin 256 → EReal
  ib : Fin 256 → EReal
  im : Fin 256 → EReal
  iv : Fin 256 → EReal
  w0 : Fin 256 → Fin 512 → EReal
  b0 : Fin 256 → EReal
  cg : Fin 256 → EReal
  cb : Fin 256 → EReal
  cm : Fin 256 → EReal
  cv : Fin 256 → EReal
  w1 : Fin 2 → Fin 256 → EReal
  b1 : Fin 2 → EReal
  cap : Fin 2 → EReal

/-- Entry `k` of the fused row: the frame half below column 256, the inertial half from there on. -/
def fusedRow (P : Params) (fr im : Fin 256 → EReal) (k : Fin 512) : EReal :=
  if h : k.val < 256 then
    bnrelu (P.fg ⟨k.val, h⟩) (P.fb ⟨k.val, h⟩) (P.fm ⟨k.val, h⟩) (P.fv ⟨k.val, h⟩) (fr ⟨k.val, h⟩)
  else
    bnrelu (P.ig ⟨k.val - 256, by omega⟩) (P.ib ⟨k.val - 256, by omega⟩) (P.im ⟨k.val - 256, by omega⟩)
      (P.iv ⟨k.val - 256, by omega⟩) (im ⟨k.val - 256, by omega⟩)

/-- Entry `j` of the hidden row. -/
def hiddenRow (P : Params) (fr im : Fin 256 → EReal) (j : Fin 256) : EReal :=
  bnrelu (P.cg j) (P.cb j) (P.cm j) (P.cv j) ((∑ k : Fin 512, fusedRow P fr im k * P.w0 j k) + P.b0 j)

/-- Output `o` of the row. -/
def outRow (P : Params) (fr im : Fin 256 → EReal) (o : Fin 2) : EReal :=
  min (max ((∑ j : Fin 256, hiddenRow P fr im j * P.w1 o j) + P.b1 o) zero) (P.cap o)

/-- The caps of the two outputs, 512 and 384, as the words both programs print. -/
def capWord (o : Fin 2) : BitVec 32 := if o.val = 0 then 0x44000000#32 else 0x43C00000#32

open Idealize.ShloMosaic.ValueIdx in
/-- The parameters read off the sixteen parameter arrays as the programs receive them: vectors of 256 (or 2)
    entries, `W0 : 256 × 512`, `W1 : 2 × 256`; the caps are constants. -/
def argParams (a2 a3 a4 a5 a6 a7 a8 a9 : (⟨1, ![256]⟩ : Shape).Idx → EReal) (a10 : (⟨2, ![256, 512]⟩ : Shape).Idx → EReal)
    (a11 a12 a13 a14 a15 : (⟨1, ![256]⟩ : Shape).Idx → EReal) (a16 : (⟨2, ![2, 256]⟩ : Shape).Idx → EReal)
    (a17 : (⟨1, ![2]⟩ : Shape).Idx → EReal) : Params where
  fg q := a6 (ix1 q)
  fb q := a7 (ix1 q)
  fm q := a8 (ix1 q)
  fv q := a9 (ix1 q)
  ig q := a2 (ix1 q)
  ib q := a3 (ix1 q)
  im q := a4 (ix1 q)
  iv q := a5 (ix1 q)
  w0 j k := a10 (ix2 j k)
  b0 q := a11 (ix1 q)
  cg q := a12 (ix1 q)
  cb q := a13 (ix1 q)
  cm q := a14 (ix1 q)
  cv q := a15 (ix1 q)
  w1 o j := a16 (ix2 o j)
  b1 o := a17 (ix1 o)
  cap o := Ideal.ofBits .f32 (capWord o)

open Idealize.ShloMosaic.ValueIdx in
/-- The whole result, 131072 rows of two outputs: row `r` is `outRow` of row `r` of the two feature arrays. -/
def G (P : Params) (frame imu : (⟨2, ![131072, 256]⟩ : Shape).Idx → EReal) : (⟨2, ![131072, 2]⟩ : Shape).Idx → EReal :=
  fun i => outRow P (fun k => frame (ix2 (i 0 : Fin 131072) k)) (fun k => imu (ix2 (i 0 : Fin 131072) k)) (i 1 : Fin 2)

end Cert.Spec

end
-- ==== Proof.KernelPay.lean ====
/-
  What the kernel's body stores at one entry of its output block: the row function of `Spec` of that row of
  the two feature blocks, with the parameters read off the parameter blocks.
-/
import proofs.«106597_j24541443129392_1_alg».proof.Proof.Gen.KernelIdeal.Skeleton
import proofs.«106597_j24541443129392_1_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

noncomputable section

namespace Cert.KernelIdeal.Pay

open Cert.KernelIdeal Cert.KernelIdeal.Gen Idealize.ShloMosaic Idealize.ShloMosaic.ValueIdx

/-! ## The two contractions read at an index

Each product contracts the left block's axis 1 with the right block's axis 0; the result's axes are the left block's
rows and the right block's columns. At the result's entry `(p, j)` and contraction position `k` the left block is
read at `(p, k)` and the right block at `(k, j)`: one statement per operand and axis, then the product as the sum
over the contracted coordinate. -/

theorem d1_lhs0 (p : Fin 1024) (j : Fin 256) (k : dot_S1024x512_S512x256_S1024x256_1_0_0_1_n_n.contr.Idx) :
    (dot_S1024x512_S512x256_S1024x256_1_0_0_1_n_n.lhsIdx (ix2 p j) k 0).val = p.val := by
  simp [DotDims.lhsIdx, dot_S1024x512_S512x256_S1024x256_1_0_0_1_n_n]; rfl

theorem d1_lhs1 (p : Fin 1024) (j : Fin 256) (k : dot_S1024x512_S512x256_S1024x256_1_0_0_1_n_n.contr.Idx) :
    (dot_S1024x512_S512x256_S1024x256_1_0_0_1_n_n.lhsIdx (ix2 p j) k 1).val = (k ⟨0, by decide⟩).val :=
  DotDims.lhsIdx_val_of_single _ (cl := 1) rfl _ _

theorem d1_rhs0 (p : Fin 1024) (j : Fin 256) (k : dot_S1024x512_S512x256_S1024x256_1_0_0_1_n_n.contr.Idx) :
    (dot_S1024x512_S512x256_S1024x256_1_0_0_1_n_n.rhsIdx (ix2 p j) k 0).val = (k ⟨0, by decide⟩).val :=
  DotDims.rhsIdx_val_of_single _ (cr := 0) rfl _ _

theorem d1_rhs1 (p : Fin 1024) (j : Fin 256) (k : dot_S1024x512_S512x256_S1024x256_1_0_0_1_n_n.contr.Idx) :
    (dot_S1024x512_S512x256_S1024x256_1_0_0_1_n_n.rhsIdx (ix2 p j) k 1).val = j.val := by
  simp [DotDims.rhsIdx, dot_S1024x512_S512x256_S1024x256_1_0_0_1_n_n]; rfl

theorem d1_mm (l : FVec Ideal S1024x512 .bf16) (r : FVec Ideal S512x256 .bf16) (p : Fin 1024) (j : Fin 256) :
    matmul dot_S1024x512_S512x256_S1024x256_1_0_0_1_n_n none l r (constant S1024x256 .f32 0x00000000#32) (ix2 p j)
      = ∑ k : Fin 512, l (ix2 p k) * r (ix2 k j) := by
  simp only [matmul]
  refine (Ideal.matmul_constant_zero_apply dot_S1024x512_S512x256_S1024x256_1_0_0_1_n_n none l r (ix2 p j)).trans ?_
  refine (Equiv.sum_comp (contrEquiv1 dot_S1024x512_S512x256_S1024x256_1_0_0_1_n_n 512 rfl rfl).symm _).symm.trans ?_
  refine Finset.sum_congr rfl fun c _ => ?_
  have hc := contrEquiv1_symm_val dot_S1024x512_S512x256_S1024x256_1_0_0_1_n_n 512 rfl rfl c
  have hl : dot_S1024x512_S512x256_S1024x256_1_0_0_1_n_n.lhsIdx (ix2 p j) ((contrEquiv1 dot_S1024x512_S512x256_S1024x256_1_0_0_1_n_n 512 rfl rfl).symm c) = ix2 p c := by
    funext a; apply Fin.ext
    match a with
    | ⟨0, _⟩ => exact d1_lhs0 p j _
    | ⟨1, _⟩ => exact (d1_lhs1 p j _).trans hc
  have hr : dot_S1024x512_S512x256_S1024x256_1_0_0_1_n_n.rhsIdx (ix2 p j) ((contrEquiv1 dot_S1024x512_S512x256_S1024x256_1_0_0_1_n_n 512 rfl rfl).symm c) = ix2 c j := by
    funext a; apply Fin.ext
    match a with
    | ⟨0, _⟩ => exact (d1_rhs0 p j _).trans hc
    | ⟨1, _⟩ => exact d1_rhs1 p j _
  rw [hl, hr]

theorem d2_lhs0 (p : Fin 1024) (j : Fin 2) (k : dot_S1024x256_S256x2_S1024x2_1_0_0_1_n_n.contr.Idx) :
    (dot_S1024x256_S256x2_S1024x2_1_0_0_1_n_n.lhsIdx (ix2 p j) k 0).val = p.val := by
  simp [DotDims.lhsIdx, dot_S1024x256_S256x2_S1024x2_1_0_0_1_n_n]; rfl

theorem d2_lhs1 (p : Fin 1024) (j : Fin 2) (k : dot_S1024x256_S256x2_S1024x2_1_0_0_1_n_n.contr.Idx) :
    (dot_S1024x256_S256x2_S1024x2_1_0_0_1_n_n.lhsIdx (ix2 p j) k 1).val = (k ⟨0, by decide⟩).val :=
  DotDims.lhsIdx_val_of_single _ (cl := 1) rfl _ _

theorem d2_rhs0 (p : Fin 1024) (j : Fin 2) (k : dot_S1024x256_S256x2_S1024x2_1_0_0_1_n_n.contr.Idx) :
    (dot_S1024x256_S256x2_S1024x2_1_0_0_1_n_n.rhsIdx (ix2 p j) k 0).val = (k ⟨0, by decide⟩).val :=
  DotDims.rhsIdx_val_of_single _ (cr := 0) rfl _ _

theorem d2_rhs1 (p : Fin 1024) (j : Fin 2) (k : dot_S1024x256_S256x2_S1024x2_1_0_0_1_n_n.contr.Idx) :
    (dot_S1024x256_S256x2_S1024x2_1_0_0_1_n_n.rhsIdx (ix2 p j) k 1).val = j.val := by
  simp [DotDims.rhsIdx, dot_S1024x256_S256x2_S1024x2_1_0_0_1_n_n]; rfl

theorem d2_mm (l : FVec Ideal S1024x256 .bf16) (r : FVec Ideal S256x2 .bf16) (p : Fin 1024) (j : Fin 2) :
    matmul dot_S1024x256_S256x2_S1024x2_1_0_0_1_n_n none l r (constant S1024x2 .f32 0x00000000#32) (ix2 p j)
      = ∑ k : Fin 256, l (ix2 p k) * r (ix2 k j) := by
  simp only [matmul]
  refine (Ideal.matmul_constant_zero_apply dot_S1024x256_S256x2_S1024x2_1_0_0_1_n_n none l r (ix2 p j)).trans ?_
  refine (Equiv.sum_comp (contrEquiv1 dot_S1024x256_S256x2_S1024x2_1_0_0_1_n_n 256 rfl rfl).symm _).symm.trans ?_
  refine Finset.sum_congr rfl fun c _ => ?_
  have hc := contrEquiv1_symm_val dot_S1024x256_S256x2_S1024x2_1_0_0_1_n_n 256 rfl rfl c
  have hl : dot_S1024x256_S256x2_S1024x2_1_0_0_1_n_n.lhsIdx (ix2 p j) ((contrEquiv1 dot_S1024x256_S256x2_S1024x2_1_0_0_1_n_n 256 rfl rfl).symm c) = ix2 p c := by
    funext a; apply Fin.ext
    match a with
    | ⟨0, _⟩ => exact d2_lhs0 p j _
    | ⟨1, _⟩ => exact (d2_lhs1 p j _).trans hc
  have hr : dot_S1024x256_S256x2_S1024x2_1_0_0_1_n_n.rhsIdx (ix2 p j) ((contrEquiv1 dot_S1024x256_S256x2_S1024x2_1_0_0_1_n_n 256 rfl rfl).symm c) = ix2 c j := by
    funext a; apply Fin.ext
    match a with
    | ⟨0, _⟩ => exact (d2_rhs0 p j _).trans hc
    | ⟨1, _⟩ => exact d2_rhs1 p j _
  rw [hl, hr]

/-! ## The layers read at an index -/

/-- A reciprocal square root of a block, read at an index, is the extended reals' of the entry. -/
theorem rsqrt_apply {s : Shape} {φ : FTy} (a : FVec Ideal s φ) (i : s.Idx) : rsqrt a i = Ideal.rsqrt (a i) := rfl

/-- The inertial half at row `p`, column `c`: the normalised, rectified entry, its parameters read off
    the one-row blocks at column `c`. -/
theorem pay2_apply (x : Vec Ideal S1024x256 .f32) (g b mu v : Vec Ideal S1x256 .f32) (p : Fin 1024) (c : Fin 256) :
    k0_pay2 x g b mu v (ix2 p c)
      = Cert.Spec.bnrelu (g (ix2 (0 : Fin 1) c)) (b (ix2 (0 : Fin 1) c)) (mu (ix2 (0 : Fin 1) c))
          (v (ix2 (0 : Fin 1) c)) (x (ix2 p c)) := by
  unfold k0_pay2
  simp only [shapeCast_self, maximumf_apply, addf_apply, mulf_apply, subf_apply, broadcast_apply,
    broadcastTo_1b_ab_apply, rsqrt_apply, Ideal.ofBits_def]
  rfl

/-- The side-by-side layout at row `p`, column `k`: the first piece below column 256, the second from there on. -/
theorem cat_apply (a b : FVec Ideal S1024x256 .f32) (p : Fin 1024) (k : Fin 512) :
    concatenate S1024x512 1 [⟨S1024x256, a⟩, ⟨S1024x256, b⟩] concatenates_S1024x256_S1024x256_S1024x512_d1 (ix2 p k)
      = if h : k.val < 256 then a (ix2 p (⟨k.val, h⟩ : Fin 256))
        else b (ix2 p (⟨k.val - 256, by have := k.isLt; omega⟩ : Fin 256)) := by
  by_cases h : k.val < 256
  · rw [dif_pos h]
    exact concatenate_pair_apply_left (t := S1024x512) (s₁ := S1024x256) (s₂ := S1024x256) (1 : Fin 2) a b
      concatenates_S1024x256_S1024x256_S1024x512_d1 (ix2 p k) rfl (ix2 p (⟨k.val, h⟩ : Fin 256)) (by
        intro c
        match c with
        | ⟨0, _⟩ => rfl
        | ⟨1, _⟩ => rfl)
  · rw [dif_neg h]
    exact concatenate_pair_apply_right (t := S1024x512) (s₁ := S1024x256) (s₂ := S1024x256) (1 : Fin 2) a b
      concatenates_S1024x256_S1024x256_S1024x512_d1 (ix2 p k) rfl rfl
      (ix2 p (⟨k.val - 256, by have := k.isLt; omega⟩ : Fin 256)) (by
        intro c hc
        match c with
        | ⟨0, _⟩ => rfl
        | ⟨1, _⟩ => exact absurd rfl hc) (by
        show k.val - 256 + 256 = k.val; omega)

/-- The frame half before its scaling by the reciprocal root: the gain times the centred entry. -/
theorem pay5_apply (x : Vec Ideal S1024x256 .f32) (g mu : Vec Ideal S1x256 .f32) (p : Fin 1024) (c : Fin 256) :
    k0_pay5 x g mu (ix2 p c) = g (ix2 (0 : Fin 1) c) * (x (ix2 p c) - mu (ix2 (0 : Fin 1) c)) := by
  unfold k0_pay5
  simp only [shapeCast_self, mulf_apply, subf_apply, broadcastTo_1b_ab_apply]

/-- The frame half's shift block is the loaded block. -/
theorem pay3_eq (b : Vec Ideal S1x256 .f32) : k0_pay3 b = b := by
  unfold k0_pay3
  exact shapeCast_self _ _

/-- The frame half's variance block is the loaded block. -/
theorem pay4_eq (v : Vec Ideal S1x256 .f32) : k0_pay4 v = v := by
  unfold k0_pay4
  exact shapeCast_self _ _

/-- The ε block holds ε everywhere. -/
theorem pay6_apply (i : S1x256.Idx) : k0_pay6 (F := Ideal) i = Cert.Spec.eps := rfl

/-- The second layer's weight block is the loaded block. -/
theorem pay8_eq (w : Vec Ideal S256x2 .f32) : k0_pay8 w = w := by
  unfold k0_pay8
  exact shapeCast_self _ _

/-- The hidden block at row `p`, column `j`: the side-by-side layout of the two halves (the frame half finished
    here: scaled, shifted, rectified) contracted over its 512 columns with the weight block's column `j`, the bias
    added, then normalised and rectified with the parameters at column `j`. -/
theorem pay7_apply (v21 : FVec Ideal S1024x256 .f32) (v26 v30 : FVec Ideal S1x256 .f32) (v34 : FVec Ideal S1024x256 .f32)
    (v35 : FVec Ideal S1x256 .f32) (w : Vec Ideal S512x256 .f32) (b0 g b mu v : Vec Ideal S1x256 .f32)
    (p : Fin 1024) (j : Fin 256) :
    k0_pay7 v21 v26 v30 v34 v35 w b0 g b mu v (ix2 p j)
      = Cert.Spec.bnrelu (g (ix2 (0 : Fin 1) j)) (b (ix2 (0 : Fin 1) j)) (mu (ix2 (0 : Fin 1) j)) (v (ix2 (0 : Fin 1) j))
          ((∑ k : Fin 512,
              (if h : k.val < 256 then
                max (v34 (ix2 p (⟨k.val, h⟩ : Fin 256))
                      * Ideal.rsqrt (v30 (ix2 (0 : Fin 1) (⟨k.val, h⟩ : Fin 256)) + v35 (ix2 (0 : Fin 1) (⟨k.val, h⟩ : Fin 256)))
                    + v26 (ix2 (0 : Fin 1) (⟨k.val, h⟩ : Fin 256))) Cert.Spec.zero
               else v21 (ix2 p (⟨k.val - 256, by have := k.isLt; omega⟩ : Fin 256))) * w (ix2 k j))
            + b0 (ix2 (0 : Fin 1) j)) := by
  unfold k0_pay7
  simp only [shapeCast_self, truncf_apply, maximumf_apply, addf_apply, mulf_apply, subf_apply, broadcast_apply,
    broadcastTo_1b_ab_apply, rsqrt_apply, Ideal.ofBits_def, d1_mm, cat_apply]
  rfl

/-- The output block at row `p`, column `q`: the hidden block's row contracted with the weight block's column `q`,
    the bias added, rectified, capped. -/
theorem pay1_apply (hid : FVec Ideal S1024x256 .bf16) (w : FVec Ideal S256x2 .f32) (b1 cap : Vec Ideal S1x2 .f32)
    (p : Fin 1024) (q : Fin 2) :
    k0_pay1 hid w b1 cap (ix2 p q)
      = min (max ((∑ j : Fin 256, hid (ix2 p j) * w (ix2 j q)) + b1 (ix2 (0 : Fin 1) q)) Cert.Spec.zero)
          (cap (ix2 (0 : Fin 1) q)) := by
  unfold k0_pay1
  simp only [shapeCast_self, truncf_apply, maximumf_apply, minimumf_apply, addf_apply, broadcast_apply,
    broadcastTo_1b_ab_apply, Ideal.ofBits_def, d2_mm]
  rfl

/-- The parameters as the body finds them in its blocks: each vector as a one-row block, the two weight
    matrices transposed (`512 × 256` and `256 × 2`), the caps as a one-row block. -/
def blkParams (x2 x3 x4 x5 x6 x7 x8 x9 : Vec Ideal S1x256 .f32) (x10 : Vec Ideal S512x256 .f32)
    (x11 x12 x13 x14 x15 : Vec Ideal S1x256 .f32) (x16 : Vec Ideal S256x2 .f32) (x17 x18 : Vec Ideal S1x2 .f32) : Cert.Spec.Params where
  fg q := x6 (ix2 (0 : Fin 1) q)
  fb q := x7 (ix2 (0 : Fin 1) q)
  fm q := x8 (ix2 (0 : Fin 1) q)
  fv q := x9 (ix2 (0 : Fin 1) q)
  ig q := x2 (ix2 (0 : Fin 1) q)
  ib q := x3 (ix2 (0 : Fin 1) q)
  im q := x4 (ix2 (0 : Fin 1) q)
  iv q := x5 (ix2 (0 : Fin 1) q)
  w0 j k := x10 (ix2 k j)
  b0 q := x11 (ix2 (0 : Fin 1) q)
  cg q := x12 (ix2 (0 : Fin 1) q)
  cb q := x13 (ix2 (0 : Fin 1) q)
  cm q := x14 (ix2 (0 : Fin 1) q)
  cv q := x15 (ix2 (0 : Fin 1) q)
  w1 o j := x16 (ix2 j o)
  b1 o := x17 (ix2 (0 : Fin 1) o)
  cap o := x18 (ix2 (0 : Fin 1) o)

theorem pay_apply (x0 x1 : Vec Ideal S1024x256 .f32) (x2 x3 x4 x5 x6 x7 x8 x9 : Vec Ideal S1x256 .f32) (x10 : Vec Ideal S512x256 .f32)
    (x11 x12 x13 x14 x15 : Vec Ideal S1x256 .f32) (x16 : Vec Ideal S256x2 .f32) (x17 x18 : Vec Ideal S1x2 .f32) (p : Fin 1024) (q : Fin 2) :
    k0_pay1 (F := Ideal) (k0_pay7 (k0_pay2 x1 x2 x3 x4 x5) (k0_pay3 x7) (k0_pay4 x9) (k0_pay5 x0 x6 x8) (k0_pay6 (F := Ideal)) x10 x11 x12 x13 x14 x15)
        (k0_pay8 x16) x17 x18 (ix2 p q)
      = Cert.Spec.outRow (blkParams x2 x3 x4 x5 x6 x7 x8 x9 x10 x11 x12 x13 x14 x15 x16 x17 x18)
          (fun k => x0 (ix2 p k)) (fun k => x1 (ix2 p k)) q := by
  -- the last layer first, then every block under it at its index; what remains is the row function's own shape
  refine (pay1_apply _ _ x17 x18 p q).trans ?_
  simp only [pay7_apply, pay8_eq, pay3_eq, pay4_eq, pay5_apply, pay6_apply, pay2_apply]
  rfl

end Cert.KernelIdeal.Pay

end
-- ==== Proof.KernelValue.lean ====
/-
  The idealized kernel's result array.  The grid has 128 points; point `t` reads rows `1024 t … 1024 t + 1023`
  of the two feature arrays and every parameter array whole (each parameter window's block index is (0, 0) at
  every point), and writes rows `1024 t … 1024 t + 1023` of the result.  The parameter arrays reach the kernel
  through host operations that only re-lay them: a vector of 256 (or 2) entries as a one-row matrix, the two
  weight matrices transposed, the caps as a constant one-row matrix.  So entry (p, q) of the block point `t`
  writes is the row function of `Spec` of row `1024 t + p` of the feature arrays, which is entry
  (1024 t + p, q) of `Spec.G`; the 128 blocks tile the 131072 rows, so the result array IS `Spec.G`.
-/
import proofs.«106597_j24541443129392_1_alg».proof.Proof.Gen.KernelIdeal.Value
import proofs.«106597_j24541443129392_1_alg».proof.Proof.Spec
import proofs.«106597_j24541443129392_1_alg».proof.Proof.KernelPay
import Idealize.ShloMosaic.Lib.Pipeline.Value
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.Value

variable (m : (ℓ : Loc nD τ sig) → Buf (Elt Ideal) ℓ) (ρ : Dev nD → PrngReg)

theorem hz : (![0, 0] : Fin 2 → Nat) = fun _ => 0 := funext fun a => by fin_cases a <;> rfl

set_option quotPrecheck false in
/-- Argument `b`'s launch contents on core `c`. -/
local notation "arg[" c ", " b "]" => m ((c : Thread nD τ).loc b)

/-- The specification at the launch contents of the argument arrays. -/
abbrev Gm (c : Dev nD) : S131072x2.Idx → EReal :=
  Cert.Spec.G (Cert.Spec.argParams arg[c, main_arg2] arg[c, main_arg3] arg[c, main_arg4] arg[c, main_arg5] arg[c, main_arg6] arg[c, main_arg7]
    arg[c, main_arg8] arg[c, main_arg9] arg[c, main_arg10] arg[c, main_arg11] arg[c, main_arg12] arg[c, main_arg13] arg[c, main_arg14] arg[c, main_arg15]
    arg[c, main_arg16] arg[c, main_arg17]) arg[c, main_arg0] arg[c, main_arg1]

/-! ## The printed index maps, decided over the 128 grid points

The two feature windows and the result window move down one block of rows per point; every parameter window
stays at block (0, 0). -/

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx19 : ∀ t : Fin cfg0.N, win0_19.index t = ![t.val, 0] := (by decide +kernel : ∀ t : Fin grid0.N, _)

/-- `stays n w`: window `w`'s block index is (0, 0) at every point, as theorem `n`. -/
local macro "stays " n:ident w:ident : command =>
  `(theorem $n : ∀ t : Fin cfg0.N, Pipeline.Window.index $w t = ![0, 0] := (by decide +kernel : ∀ t : Fin grid0.N, _))

stays idx2 win0_2
stays idx3 win0_3
stays idx4 win0_4
stays idx5 win0_5
stays idx6 win0_6
stays idx7 win0_7
stays idx8 win0_8
stays idx9 win0_9
stays idx10 win0_10
stays idx11 win0_11
stays idx12 win0_12
stays idx13 win0_13
stays idx14 win0_14
stays idx15 win0_15
stays idx16 win0_16
stays idx17 win0_17
stays idx18 win0_18

/-! ## The arrays the host operations hand the region: each a re-laying of one argument -/

set_option hygiene false in
/-- `relaid n v a`: the host's array `v` is the vector argument `a` cast to one row, as theorem `n`. -/
local macro "relaid " n:ident v:ident a:ident : command =>
  `(theorem $n (c : Dev nD) : (V m c $v : S1x256.Idx → EReal) = shapeCast S1x256 (m ((c : Thread nD τ).loc $a)) shapeCasts_S256_S1x256 := by
      dsimp only [Gen.V, Gen.hostOps0]; after_results; try rfl)

relaid V_v0 main_v0 main_arg2
relaid V_v1 main_v1 main_arg3
relaid V_v2 main_v2 main_arg4
relaid V_v3 main_v3 main_arg5
relaid V_v4 main_v4 main_arg6
relaid V_v5 main_v5 main_arg7
relaid V_v6 main_v6 main_arg8
relaid V_v7 main_v7 main_arg9
relaid V_v8 main_v8 main_arg12
relaid V_v9 main_v9 main_arg13
relaid V_v10 main_v10 main_arg14
relaid V_v11 main_v11 main_arg15
relaid V_v13 main_v13 main_arg11

theorem V_v12 (c : Dev nD) : (V m c main_v12 : S512x256.Idx → EReal) = transpose S512x256 [1, 0] arg[c, main_arg10] transposes_S256x512_S512x256_1_0 := by
  dsimp only [Gen.V, Gen.hostOps0]; after_results; try rfl
theorem V_v14 (c : Dev nD) : (V m c main_v14 : S256x2.Idx → EReal) = transpose S256x2 [1, 0] arg[c, main_arg16] transposes_S2x256_S256x2_1_0 := by
  dsimp only [Gen.V, Gen.hostOps0]; after_results; try rfl
theorem V_v15 (c : Dev nD) : (V m c main_v15 : S1x2.Idx → EReal) = shapeCast S1x2 arg[c, main_arg17] shapeCasts_S2_S1x2 := by
  dsimp only [Gen.V, Gen.hostOps0]; after_results; try rfl
theorem V_v16 (c : Dev nD) : (V m c main_v16 : S1x2.Idx → EReal) = shapeCast S1x2 (fun i => FloatOps.ofBits (F := Ideal) .f32 (lit0 (S2.rowMajor i))) shapeCasts_S2_S1x2 := by
  dsimp only [Gen.V, Gen.hostOps0]; after_results; try rfl

/-! ## Each window's block at a point, read at an entry -/

/-- Row `p` of the frame block at point `t` is row `1024 t + p` of the frame array. -/
theorem blk0 (c : Dev nD) (t : Fin cfg0.N) (x : S1024x256.Idx) (k : S131072x256.Idx)
    (hk0 : (k 0).val = 1024 * t.val + (x 0).val) (hk1 : (k 1).val = (x 1).val) :
    (iblk m c 0 t : Vec Ideal S1024x256 .f32) x = (arg[c, main_arg0] : S131072x256.Idx → EReal) k := by
  have e0 : win0_0.index t (0 : Fin 2) = t.val := congrFun (idx0 t) 0
  have e1 : win0_0.index t (1 : Fin 2) = 0 := congrFun (idx0 t) 1
  unfold iblk
  rw [View.read_apply]
  show V m c main_arg0 _ = _
  rw [V_main_arg0]
  congr 1
  funext a
  apply Fin.ext
  match a with
  | ⟨0, _⟩ => show win0_0.index t (0 : Fin 2) * 1024 + 1 * (x 0).val = (k 0).val; rw [e0, hk0]; omega
  | ⟨1, _⟩ => show win0_0.index t (1 : Fin 2) * 256 + 1 * (x 1).val = (k 1).val; rw [e1, hk1]; omega

/-- Row `p` of the inertial block at point `t` is row `1024 t + p` of the inertial array. -/
theorem blk1 (c : Dev nD) (t : Fin cfg0.N) (x : S1024x256.Idx) (k : S131072x256.Idx)
    (hk0 : (k 0).val = 1024 * t.val + (x 0).val) (hk1 : (k 1).val = (x 1).val) :
    (iblk m c 1 t : Vec Ideal S1024x256 .f32) x = (arg[c, main_arg1] : S131072x256.Idx → EReal) k := by
  have e0 : win0_1.index t (0 : Fin 2) = t.val := congrFun (idx1 t) 0
  have e1 : win0_1.index t (1 : Fin 2) = 0 := congrFun (idx1 t) 1
  unfold iblk
  rw [View.read_apply]
  show V m c main_arg1 _ = _
  rw [V_main_arg1]
  congr 1
  funext a
  apply Fin.ext
  match a with
  | ⟨0, _⟩ => show win0_1.index t (0 : Fin 2) * 1024 + 1 * (x 0).val = (k 0).val; rw [e0, hk0]; omega
  | ⟨1, _⟩ => show win0_1.index t (1 : Fin 2) * 256 + 1 * (x 1).val = (k 1).val; rw [e1, hk1]; omega

set_option hygiene false in
/-- `whole_row n w win idx v hv a`: window number `w` (`win`, staying at (0, 0) by `idx`) stages the whole one-row
    array `v`, which by `hv` is the vector argument `a` cast to one row; so entry `q` of its block at any point is
    entry `q` of `a`. The block's coordinate on an axis is index × size + the coordinate inside the block. -/
local macro "whole_row " n:ident w:num win:ident idx:ident v:ident hv:ident a:ident : command =>
  `(theorem $n (c : Dev nD) (t : Fin cfg0.N) (q : Fin 256) :
      (iblk m c $w t : Vec Ideal S1x256 .f32) (ix2 (0 : Fin 1) q) = (m ((c : Thread nD τ).loc $a) : S256.Idx → EReal) (ix1 q) := by
    have e0 : Pipeline.Window.index $win t (0 : Fin 2) = 0 := congrFun ($idx t) 0
    have e1 : Pipeline.Window.index $win t (1 : Fin 2) = 0 := congrFun ($idx t) 1
    unfold iblk
    rw [View.read_apply]
    show V m c $v _ = _
    have he : ((cfg0.win $w).blk t).view.emb (ix2 (0 : Fin 1) q) = (ix2 (0 : Fin 1) q : S1x256.Idx) := by
      funext a
      apply Fin.ext
      match a with
      | ⟨0, _⟩ => show Pipeline.Window.index $win t (0 : Fin 2) * 1 + 1 * 0 = 0; rw [e0]
      | ⟨1, _⟩ => show Pipeline.Window.index $win t (1 : Fin 2) * 256 + 1 * q.val = q.val; rw [e1]; omega
    rw [he, $hv:ident]
    exact shapeCast_a_1a_apply _ _ _ _)

whole_row blk2 2 win0_2 idx2 main_v0 V_v0 main_arg2
whole_row blk3 3 win0_3 idx3 main_v1 V_v1 main_arg3
whole_row blk4 4 win0_4 idx4 main_v2 V_v2 main_arg4
whole_row blk5 5 win0_5 idx5 main_v3 V_v3 main_arg5
whole_row blk6 6 win0_6 idx6 main_v4 V_v4 main_arg6
whole_row blk7 7 win0_7 idx7 main_v5 V_v5 main_arg7
whole_row blk8 8 win0_8 idx8 main_v6 V_v6 main_arg8
whole_row blk9 9 win0_9 idx9 main_v7 V_v7 main_arg9
whole_row blk11 11 win0_11 idx11 main_v13 V_v13 main_arg11
whole_row blk12 12 win0_12 idx12 main_v8 V_v8 main_arg12
whole_row blk13 13 win0_13 idx13 main_v9 V_v9 main_arg13
whole_row blk14 14 win0_14 idx14 main_v10 V_v10 main_arg14
whole_row blk15 15 win0_15 idx15 main_v11 V_v11 main_arg15

/-- The first weight block is the whole transposed matrix: entry (k, j) is `W0` at (j, k). -/
theorem blk10 (c : Dev nD) (t : Fin cfg0.N) (k : Fin 512) (j : Fin 256) :
    (iblk m c 10 t : Vec Ideal S512x256 .f32) (ix2 k j) = (arg[c, main_arg10] : S256x512.Idx → EReal) (ix2 j k) := by
  have e0 : win0_10.index t (0 : Fin 2) = 0 := congrFun (idx10 t) 0
  have e1 : win0_10.index t (1 : Fin 2) = 0 := congrFun (idx10 t) 1
  unfold iblk
  rw [View.read_apply]
  show V m c main_v12 _ = _
  have he : ((cfg0.win 10).blk t).view.emb (ix2 k j) = (ix2 k j : S512x256.Idx) := by
    funext a
    apply Fin.ext
    match a with
    | ⟨0, _⟩ => show win0_10.index t (0 : Fin 2) * 512 + 1 * k.val = k.val; rw [e0]; omega
    | ⟨1, _⟩ => show win0_10.index t (1 : Fin 2) * 256 + 1 * j.val = j.val; rw [e1]; omega
  rw [he, V_v12]
  exact transpose_ix2_apply _ _ _ _

/-- The second weight block is the whole transposed matrix: entry (j, o) is `W1` at (o, j). -/
theorem blk16 (c : Dev nD) (t : Fin cfg0.N) (j : Fin 256) (o : Fin 2) :
    (iblk m c 16 t : Vec Ideal S256x2 .f32) (ix2 j o) = (arg[c, main_arg16] : S2x256.Idx → EReal) (ix2 o j) := by
  have e0 : win0_16.index t (0 : Fin 2) = 0 := congrFun (idx16 t) 0
  have e1 : win0_16.index t (1 : Fin 2) = 0 := congrFun (idx16 t) 1
  unfold iblk
  rw [View.read_apply]
  show V m c main_v14 _ = _
  have he : ((cfg0.win 16).blk t).view.emb (ix2 j o) = (ix2 j o : S256x2.Idx) := by
    funext a
    apply Fin.ext
    match a with
    | ⟨0, _⟩ => show win0_16.index t (0 : Fin 2) * 256 + 1 * j.val = j.val; rw [e0]; omega
    | ⟨1, _⟩ => show win0_16.index t (1 : Fin 2) * 2 + 1 * o.val = o.val; rw [e1]; omega
  rw [he, V_v14]
  exact transpose_ix2_apply _ _ _ _

/-- The last bias block is its whole one-row array. -/
theorem blk17 (c : Dev nD) (t : Fin cfg0.N) (o : Fin 2) :
    (iblk m c 17 t : Vec Ideal S1x2 .f32) (ix2 (0 : Fin 1) o) = (arg[c, main_arg17] : S2.Idx → EReal) (ix1 o) := by
  have e0 : win0_17.index t (0 : Fin 2) = 0 := congrFun (idx17 t) 0
  have e1 : win0_17.index t (1 : Fin 2) = 0 := congrFun (idx17 t) 1
  unfold iblk
  rw [View.read_apply]
  show V m c main_v15 _ = _
  have he : ((cfg0.win 17).blk t).view.emb (ix2 (0 : Fin 1) o) = (ix2 (0 : Fin 1) o : S1x2.Idx) := by
    funext a
    apply Fin.ext
    match a with
    | ⟨0, _⟩ => show win0_17.index t (0 : Fin 2) * 1 + 1 * 0 = 0; rw [e0]
    | ⟨1, _⟩ => show win0_17.index t (1 : Fin 2) * 2 + 1 * o.val = o.val; rw [e1]; omega
  rw [he, V_v15]
  exact shapeCast_a_1a_apply _ _ _ _

/-- The cap block is the constant one-row array: 512 at column 0, 384 at column 1. -/
theorem blk18 (c : Dev nD) (t : Fin cfg0.N) (o : Fin 2) :
    (iblk m c 18 t : Vec Ideal S1x2 .f32) (ix2 (0 : Fin 1) o) = Ideal.ofBits .f32 (Cert.Spec.capWord o) := by
  have e0 : win0_18.index t (0 : Fin 2) = 0 := congrFun (idx18 t) 0
  have e1 : win0_18.index t (1 : Fin 2) = 0 := congrFun (idx18 t) 1
  unfold iblk
  rw [View.read_apply]
  show V m c main_v16 _ = _
  have he : ((cfg0.win 18).blk t).view.emb (ix2 (0 : Fin 1) o) = (ix2 (0 : Fin 1) o : S1x2.Idx) := by
    funext a
    apply Fin.ext
    match a with
    | ⟨0, _⟩ => show win0_18.index t (0 : Fin 2) * 1 + 1 * 0 = 0; rw [e0]
    | ⟨1, _⟩ => show win0_18.index t (1 : Fin 2) * 2 + 1 * o.val = o.val; rw [e1]; omega
  rw [he, V_v16]
  refine (shapeCast_a_1a_apply _ _ _ _).trans ?_
  fin_cases o <;> rfl

/-- The parameters the body finds in its blocks are the parameters of the argument arrays, at every point. -/
theorem params_eq (c : Dev nD) (t : Fin cfg0.N) :
    Cert.KernelIdeal.Pay.blkParams (iblk m c 2 t) (iblk m c 3 t) (iblk m c 4 t) (iblk m c 5 t) (iblk m c 6 t) (iblk m c 7 t) (iblk m c 8 t) (iblk m c 9 t)
        (iblk m c 10 t) (iblk m c 11 t) (iblk m c 12 t) (iblk m c 13 t) (iblk m c 14 t) (iblk m c 15 t) (iblk m c 16 t) (iblk m c 17 t) (iblk m c 18 t)
      = Cert.Spec.argParams arg[c, main_arg2] arg[c, main_arg3] arg[c, main_arg4] arg[c, main_arg5] arg[c, main_arg6] arg[c, main_arg7]
          arg[c, main_arg8] arg[c, main_arg9] arg[c, main_arg10] arg[c, main_arg11] arg[c, main_arg12] arg[c, main_arg13] arg[c, main_arg14] arg[c, main_arg15]
          arg[c, main_arg16] arg[c, main_arg17] := by
  simp only [Cert.KernelIdeal.Pay.blkParams, Cert.Spec.argParams, Cert.Spec.Params.mk.injEq]
  exact ⟨funext fun q => blk6 m c t q, funext fun q => blk7 m c t q, funext fun q => blk8 m c t q, funext fun q => blk9 m c t q,
    funext fun q => blk2 m c t q, funext fun q => blk3 m c t q, funext fun q => blk4 m c t q, funext fun q => blk5 m c t q,
    funext fun j => funext fun k => blk10 m c t k j, funext fun q => blk11 m c t q,
    funext fun q => blk12 m c t q, funext fun q => blk13 m c t q, funext fun q => blk14 m c t q, funext fun q => blk15 m c t q,
    funext fun o => funext fun j => blk16 m c t j o, funext fun o => blk17 m c t o, funext fun o => blk18 m c t o⟩

/-! ## One entry of a point's output block -/

/-- Entry `y` of the block the body computes from blocks that are rows `1024 t …` of the feature arrays and
    the parameters `P` is entry `i` of the specification, when `i` is `y` moved down `1024 t` rows. -/
theorem block_entry (tv : Nat) (htv : tv < 128) (A0 A1 : S131072x256.Idx → EReal) (P : Cert.Spec.Params)
    (x0 x1 : Vec Ideal S1024x256 .f32) (x2 x3 x4 x5 x6 x7 x8 x9 : Vec Ideal S1x256 .f32) (x10 : Vec Ideal S512x256 .f32)
    (x11 x12 x13 x14 x15 : Vec Ideal S1x256 .f32) (x16 : Vec Ideal S256x2 .f32) (x17 x18 : Vec Ideal S1x2 .f32)
    (h0 : ∀ (p : Fin 1024) (k : Fin 256), x0 (ix2 p k) = A0 (ix2 (⟨1024 * tv + p.val, by omega⟩ : Fin 131072) k))
    (h1 : ∀ (p : Fin 1024) (k : Fin 256), x1 (ix2 p k) = A1 (ix2 (⟨1024 * tv + p.val, by omega⟩ : Fin 131072) k))
    (hP : Cert.KernelIdeal.Pay.blkParams x2 x3 x4 x5 x6 x7 x8 x9 x10 x11 x12 x13 x14 x15 x16 x17 x18 = P)
    (y : S1024x2.Idx) (i : S131072x2.Idx) (hi0 : (i 0).val = 1024 * tv + (y 0).val) (hi1 : (i 1).val = (y 1).val) :
    k0_pay1 (F := Ideal) (k0_pay7 (k0_pay2 x1 x2 x3 x4 x5) (k0_pay3 x7) (k0_pay4 x9) (k0_pay5 x0 x6 x8) (k0_pay6 (F := Ideal)) x10 x11 x12 x13 x14 x15)
        (k0_pay8 x16) x17 x18 y = Cert.Spec.G P A0 A1 i := by
  obtain ⟨p, q, rfl⟩ : ∃ (p : Fin 1024) (q : Fin 2), y = ix2 p q := ⟨y 0, y 1, eq_ix2 y⟩
  rw [Cert.KernelIdeal.Pay.pay_apply, hP]
  have hb : 1024 * tv + p.val < 131072 := by have := p.isLt; omega
  have e0 : (i 0 : Fin 131072) = ⟨1024 * tv + p.val, hb⟩ := Fin.ext hi0
  have e1 : (i 1 : Fin 2) = q := Fin.ext hi1
  unfold Cert.Spec.G
  simp only [e0, e1, h0, h1]
  rfl

/-! ## The blocks tile the result -/

/-- WHAT POINT `t` WRITES BACK is block `t` of the specification at the launch contents. -/
theorem flushed_eq (c : Dev nD) (t : Fin cfg0.N) :
    (dats m 0 c).flushed 19 t = ((cfg0.win 19).blk t).view.read (Elt Ideal) (Gm m c) := by
  have hN : cfg0.N = 128 := N_0
  have e0 : win0_19.index t (0 : Fin 2) = t.val := congrFun (idx19 t) 0
  have e1 : win0_19.index t (1 : Fin 2) = 0 := congrFun (idx19 t) 1
  rw [flushed19]
  unfold out0_19
  rw [View.canon_unit_zero hz]
  simp only [View.ld_unit_zero (S := S1024x256) hz, View.ld_unit_zero (S := S1x256) hz, View.ld_unit_zero (S := S512x256) hz,
    View.ld_unit_zero (S := S256x2) hz, View.ld_unit_zero (S := S1x2) hz]
  funext j
  rw [View.read_apply]
  show k0_pay1 (F := Ideal) _ _ _ _ j = Gm m c (((cfg0.win 19).blk t).view.emb j)
  refine block_entry t.val (by omega) arg[c, main_arg0] arg[c, main_arg1] _ (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t) (iblk m c 13 t) (iblk m c 14 t)
    (iblk m c 15 t) (iblk m c 16 t) (iblk m c 17 t) (iblk m c 18 t)
    (fun p k => blk0 m c t (ix2 p k) (ix2 _ k) rfl rfl) (fun p k => blk1 m c t (ix2 p k) (ix2 _ k) rfl rfl) (params_eq m c t) j _ ?_ ?_
  · show win0_19.index t (0 : Fin 2) * 1024 + 1 * (j 0).val = 1024 * t.val + (j 0).val
    rw [e0]; omega
  · show win0_19.index t (1 : Fin 2) * 2 + 1 * (j 1).val = (j 1).val
    rw [e1]; omega

/-- An index of the result is in point `t`'s block iff each coordinate is in the block's range on its axis. -/
theorem mem_blk (t : Fin cfg0.N) (i : S131072x2.Idx) :
    i ∈ ((cfg0.win 19).blk t).view.set ↔ ∀ a : Fin 2, win0_19.index t a * S1024x2.size a ≤ (i a).val ∧ (i a).val < win0_19.index t a * S1024x2.size a + S1024x2.size a := by
  show i ∈ ((View.whole main_v17).slice (win0_19.rect t)).set ↔ _
  rw [View.set_slice_whole, Rect.mem_set_unit]
  exact Iff.rfl

/-- Every index of the result is in the block of the point its row falls under: row `r` under point `r / 1024`. -/
theorem cover (i : S131072x2.Idx) : ∃ t : Fin cfg0.N, (cfg0.win 19).flush t = true ∧ i ∈ ((cfg0.win 19).blk t).view.set := by
  have hN : cfg0.N = 128 := N_0
  have hi0 : (i 0).val < 131072 := (i 0).isLt
  have hi1 : (i 1).val < 2 := (i 1).isLt
  have ht : (i 0).val / 1024 < cfg0.N := by rw [hN]; omega
  refine ⟨⟨(i 0).val / 1024, ht⟩, flush0_19 _, ?_⟩
  have e0 : win0_19.index ⟨(i 0).val / 1024, ht⟩ (0 : Fin 2) = (i 0).val / 1024 := congrFun (idx19 ⟨(i 0).val / 1024, ht⟩) 0
  have e1 : win0_19.index ⟨(i 0).val / 1024, ht⟩ (1 : Fin 2) = 0 := congrFun (idx19 ⟨(i 0).val / 1024, ht⟩) 1
  rw [mem_blk]
  intro a
  match a with
  | ⟨0, _⟩ =>
    show win0_19.index ⟨(i 0).val / 1024, ht⟩ (0 : Fin 2) * 1024 ≤ (i 0).val ∧ (i 0).val < win0_19.index ⟨(i 0).val / 1024, ht⟩ (0 : Fin 2) * 1024 + 1024
    rw [e0]; omega
  | ⟨1, _⟩ =>
    show win0_19.index ⟨(i 0).val / 1024, ht⟩ (1 : Fin 2) * 2 ≤ (i 1).val ∧ (i 1).val < win0_19.index ⟨(i 0).val / 1024, ht⟩ (1 : Fin 2) * 2 + 2
    rw [e1]; omega

/-- So the result array ends holding the specification. -/
theorem final (c : Dev nD) : (dats m 0 c).arrAt 19 cfg0.N = Gm m c :=
  (dats m 0 c).arrAt_eq_of_cover 19 (Gm m c) (fun t _ => flushed_eq m c t) cover

/-- The run, read: the result array at the specification of the argument arrays, the arguments unchanged. -/
theorem run : θ_run defs (onTc (τ := τ) (main (F := Ideal))) ⟨m, fun _ => 0, ρ⟩ fun r => ∀ c : Dev nD,
      r.2.mem ((c : Thread nD τ).loc main_v17) = Gm m c
      ∧ r.2.mem ((c : Thread nD τ).loc main_arg0) = arg[c, main_arg0]
      ∧ r.2.mem ((c : Thread nD τ).loc main_arg1) = arg[c, main_arg1]
      ∧ r.2.mem ((c : Thread nD τ).loc main_arg2) = arg[c, main_arg2]
      ∧ r.2.mem ((c : Thread nD τ).loc main_arg3) = arg[c, main_arg3]
      ∧ r.2.mem ((c : Thread nD τ).loc main_arg4) = arg[c, main_arg4]
      ∧ r.2.mem ((c : Thread nD τ).loc main_arg5) = arg[c, main_arg5]
      ∧ r.2.mem ((c : Thread nD τ).loc main_arg6) = arg[c, main_arg6]
      ∧ r.2.mem ((c : Thread nD τ).loc main_arg7) = arg[c, main_arg7]
      ∧ r.2.mem ((c : Thread nD τ).loc main_arg8) = arg[c, main_arg8]
      ∧ r.2.mem ((c : Thread nD τ).loc main_arg9) = arg[c, main_arg9]
      ∧ r.2.mem ((c : Thread nD τ).loc main_arg10) = arg[c, main_arg10]
      ∧ r.2.mem ((c : Thread nD τ).loc main_arg11) = arg[c, main_arg11]
      ∧ r.2.mem ((c : Thread nD τ).loc main_arg12) = arg[c, main_arg12]
      ∧ r.2.mem ((c : Thread nD τ).loc main_arg13) = arg[c, main_arg13]
      ∧ r.2.mem ((c : Thread nD τ).loc main_arg14) = arg[c, main_arg14]
      ∧ r.2.mem ((c : Thread nD τ).loc main_arg15) = arg[c, main_arg15]
      ∧ r.2.mem ((c : Thread nD τ).loc main_arg16) = arg[c, main_arg16]
      ∧ r.2.mem ((c : Thread nD τ).loc main_arg17) = arg[c, main_arg17] :=
  (θ_run defs _ _).mono (fun _ h c => ⟨(h c).1.trans (final m c), (h c).2⟩) (run_blocks m ρ)

end Cert.KernelIdeal.Hand

end
-- ==== Proof.RefTerm.lean ====
/-
  The reference program's result as ONE term of its eighteen argument arrays: the host operations of its
  @main composed in the order the program runs them, the three batch normalisations and the rectifications
  named once each.  A parameter vector of 256 entries is laid along every one of the 131072 rows by two
  broadcasts (first to one row, then down the rows); the feature halves are concatenated along the columns,
  frame first; the dense layers are the host's `dot_general` against the transposed weights.
-/
import proofs.«106597_j24541443129392_1_alg».proof.Proof.Gen.ReferenceIdeal

noncomputable section

namespace Cert.ReferenceIdeal.RefValue

open Cert.ReferenceIdeal Idealize.ShloMosaic
open Facts₀

variable {F : FTy → Type} [FloatOps F]

/-- A vector of 256 entries laid along each of the 131072 rows. -/
def rows (p : FVec F S256 .f32) : FVec F S131072x256 .f32 :=
  broadcastInDim S131072x256 ![0, 1] bcast_S1x256_S131072x256_0_1 (broadcastInDim S1x256 ![1] bcast_S256_S1x256_1 p)

/-- A vector of 2 entries laid along each of the 131072 rows. -/
def rows2 (p : FVec F S2 .f32) : FVec F S131072x2 .f32 :=
  broadcastInDim S131072x2 ![0, 1] bcast_S1x2_S131072x2_0_1 (broadcastInDim S1x2 ![1] bcast_S2_S1x2_1 p)

/-- Batch normalisation of every row: `g · (x − μ) · rsqrt (v + ε) + b`, column by column. -/
def bn (x : FVec F S131072x256 .f32) (g b mu v : FVec F S256 .f32) : FVec F S131072x256 .f32 :=
  addf (mulf (mulf (rows g) (subf x (rows mu)))
    (rows (Host.rsqrt (addf v (broadcastInDim S256 ![] bcast_S_S256 (constant S_ .f32 0x3727C5AC#32)))))) (rows b)

/-- Rectification of a 256-column array. -/
def relu (x : FVec F S131072x256 .f32) : FVec F S131072x256 .f32 :=
  maximumf x (broadcastInDim S131072x256 ![] bcast_S_S131072x256 (constant S_ .f32 0x00000000#32))

/-- Rectification of a 2-column array. -/
def relu2 (x : FVec F S131072x2 .f32) : FVec F S131072x2 .f32 :=
  maximumf x (broadcastInDim S131072x2 ![] bcast_S_S131072x2 (constant S_ .f32 0x00000000#32))

/-- The two rectified, normalised feature arrays side by side: frame columns first. -/
def fused (a0 a1 : FVec F S131072x256 .f32) (a2 a3 a4 a5 a6 a7 a8 a9 : FVec F S256 .f32) : FVec F S131072x512 .f32 :=
  concatenate S131072x512 1 [⟨S131072x256, relu (bn a0 a6 a7 a8 a9)⟩, ⟨S131072x256, relu (bn a1 a2 a3 a4 a5)⟩]
    concatenates_S131072x256_S131072x256_S131072x512_d1

/-- The hidden layer: dense, normalised, rectified. -/
def hidden (a0 a1 : FVec F S131072x256 .f32) (a2 a3 a4 a5 a6 a7 a8 a9 : FVec F S256 .f32) (a10 : FVec F S256x512 .f32)
    (a11 a12 a13 a14 a15 : FVec F S256 .f32) : FVec F S131072x256 .f32 :=
  relu (bn (addf (Host.dotGeneral dot_S131072x512_S512x256_S131072x256_1_0_0_1_n_n none (fused a0 a1 a2 a3 a4 a5 a6 a7 a8 a9)
      (transpose S512x256 [1, 0] a10 transposes_S256x512_S512x256_1_0)) (rows a11)) a12 a13 a14 a15)

/-- The reference's result. -/
def refTerm (a0 a1 : FVec F S131072x256 .f32) (a2 a3 a4 a5 a6 a7 a8 a9 : FVec F S256 .f32) (a10 : FVec F S256x512 .f32)
    (a11 a12 a13 a14 a15 : FVec F S256 .f32) (a16 : FVec F S2x256 .f32) (a17 : FVec F S2 .f32) : FVec F S131072x2 .f32 :=
  minimumf (relu2 (addf (Host.dotGeneral dot_S131072x256_S256x2_S131072x2_1_0_0_1_n_n none
      (hidden a0 a1 a2 a3 a4 a5 a6 a7 a8 a9 a10 a11 a12 a13 a14 a15)
      (transpose S256x2 [1, 0] a16 transposes_S2x256_S256x2_1_0)) (rows2 a17)))
    (rows2 (fun i => FloatOps.ofBits .f32 (lit0 (S2.rowMajor i))))

end Cert.ReferenceIdeal.RefValue

end
-- ==== Proof.RefRun.lean ====
/-
  The reference program's run: every weakly fair execution of its @main ends with the result buffer at the
  composed term `refTerm` of the argument arrays, the arguments unchanged.
-/
import proofs.«106597_j24541443129392_1_alg».proof.Proof.RefTerm
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The reference's 75 operations in program order: @main's 63 own and, at each of its four calls, the three of
    the rectification called there, over that call's own buffers (the zero, the zero laid over the whole array,
    the elementwise maximum of the operand with it). -/
abbrev ops : List (HloOp τ sig (Elt F)) :=
  [ StableHlo.nullary main_cst (fun i => FloatOps.ofBits .f32 (lit0 (S2.rowMajor i))),
    StableHlo.unary main_arg4 main_v0 (broadcastInDim S1x256 ![1] Facts₀.bcast_S256_S1x256_1 : (⟨S256, .f32⟩ : BufTy).Contents (Elt F) → (⟨S1x256, .f32⟩ : BufTy).Contents (Elt F)),
    StableHlo.unary main_v0 main_v1 (broadcastInDim S131072x256 ![0, 1] Facts₀.bcast_S1x256_S131072x256_0_1 : (⟨S1x256, .f32⟩ : BufTy).Contents (Elt F) → (⟨S131072x256, .f32⟩ : BufTy).Contents (Elt F)),
    StableHlo.binary main_arg1 main_v1 main_v2 (subf : (⟨S131072x256, .f32⟩ : BufTy).Contents (Elt F) → (⟨S131072x256, .f32⟩ : BufTy).Contents (Elt F) → (⟨S131072x256, .f32⟩ : BufTy).Contents (Elt F)),
    StableHlo.unary main_arg2 main_v3 (broadcastInDim S1x256 ![1] Facts₀.bcast_S256_S1x256_1 : (⟨S256, .f32⟩ : BufTy).Contents (Elt F) → (⟨S1x256, .f32⟩ : BufTy).Contents (Elt F)),
    StableHlo.unary main_v3 main_v4 (broadcastInDim S131072x256 ![0, 1] Facts₀.bcast_S1x256_S131072x256_0_1 : (⟨S1x256, .f32⟩ : BufTy).Contents (Elt F) → (⟨S131072x256, .f32⟩ : BufTy).Contents (Elt F)),
    StableHlo.binary main_v4 main_v2 main_v5 (mulf : (⟨S131072x256, .f32⟩ : BufTy).Contents (Elt F) → (⟨S131072x256, .f32⟩ : BufTy).Contents (Elt F) → (⟨S131072x256, .f32⟩ : BufTy).Contents (Elt F)),
    StableHlo.nullary main_cst_0 (constant S_ .f32 0x3727C5AC#32),
    StableHlo.unary main_cst_0 main_v6 (broadcastInDim S256 ![] Facts₀.bcast_S_S256 : (⟨S_, .f32⟩ : BufTy).Contents (Elt F) → (⟨S256, .f32⟩ : BufTy).Contents (Elt F)),
    StableHlo.binary main_arg5 main_v6 main_v7 (addf : (⟨S256, .f32⟩ : BufTy).Contents (Elt F) → (⟨S256, .f32⟩ : BufTy).Contents (Elt F) → (⟨S256, .f32⟩ : BufTy).Contents (Elt F)),
    StableHlo.unary main_v7 main_v8 (Host.rsqrt : (⟨S256, .f32⟩ : BufTy).Contents (Elt F) → (⟨S256, .f32⟩ : BufTy).Contents (Elt F)),
    StableHlo.unary main_v8 main_v9 (broadcastInDim S1x256 ![1] Facts₀.bcast_S256_S1x256_1 : (⟨S256, .f32⟩ : BufTy).Contents (Elt F) → (⟨S1x256, .f32⟩ : BufTy).Contents (Elt F)),
    StableHlo.unary main_v9 main_v10 (broadcastInDim S131072x256 ![0, 1] Facts₀.bcast_S1x256_S131072x256_0_1 : (⟨S1x256, .f32⟩ : BufTy).Contents (Elt F) → (⟨S131072x256, .f32⟩ : BufTy).Contents (Elt F)),
    StableHlo.binary main_v5 main_v10 main_v11 (mulf : (⟨S131072x256, .f32⟩ : BufTy).Contents (Elt F) → (⟨S131072x256, .f32⟩ : BufTy).Contents (Elt F) → (⟨S131072x256, .f32⟩ : BufTy).Contents (Elt F)),
    StableHlo.unary main_arg3 main_v12 (broadcastInDim S1x256 ![1] Facts₀.bcast_S256_S1x256_1 : (⟨S256, .f32⟩ : BufTy).Contents (Elt F) → (⟨S1x256, .f32⟩ : BufTy).Contents (Elt F)),
    StableHlo.unary main_v12 main_v13 (broadcastInDim S131072x256 ![0, 1] Facts₀.bcast_S1x256_S131072x256_0_1 : (⟨S1x256, .f32⟩ : BufTy).Contents (Elt F) → (⟨S131072x256, .f32⟩ : BufTy).Contents (Elt F)),
    StableHlo.binary main_v11 main_v13 main_v14 (addf : (⟨S131072x256, .f32⟩ : BufTy).Contents (Elt F) → (⟨S131072x256, .f32⟩ : BufTy).Contents (Elt F) → (⟨S131072x256, .f32⟩ : BufTy).Contents (Elt F)),
    StableHlo.TRef.nullary main_call0.cst (constant S_ .f32 0x00000000#32),
    StableHlo.TRef.unary main_call0.cst main_call0.v0 (broadcastInDim S131072x256 ![] Facts₀.bcast_S_S131072x256),
    StableHlo.TRef.binary (StableHlo.TRef.of main_v14 : StableHlo.TRef sig ⟨S131072x256, .f32⟩) main_call0.v0 main_call0.v1 maximumf,
    StableHlo.unary main_arg8 main_v16 (broadcastInDim S1x256 ![1] Facts₀.bcast_S256_S1x256_1 : (⟨S256, .f32⟩ : BufTy).Contents (Elt F) → (⟨S1x256, .f32⟩ : BufTy).Contents (Elt F)),
    StableHlo.unary main_v16 main_v17 (broadcastInDim S131072x256 ![0, 1] Facts₀.bcast_S1x256_S131072x256_0_1 : (⟨S1x256, .f32⟩ : BufTy).Contents (Elt F) → (⟨S131072x256, .f32⟩ : BufTy).Contents (Elt F)),
    StableHlo.binary main_arg0 main_v17 main_v18 (subf : (⟨S131072x256, .f32⟩ : BufTy).Contents (Elt F) → (⟨S131072x256, .f32⟩ : BufTy).Contents (Elt F) → (⟨S131072x256, .f32⟩ : BufTy).Contents (Elt F)),
    StableHlo.unary main_arg6 main_v19 (broadcastInDim S1x256 ![1] Facts₀.bcast_S256_S1x256_1 : (⟨S256, .f32⟩ : BufTy).Contents (Elt F) → (⟨S1x256, .f32⟩ : BufTy).Contents (Elt F)),
    StableHlo.unary main_v19 main_v20 (broadcastInDim S131072x256 ![0, 1] Facts₀.bcast_S1x256_S131072x256_0_1 : (⟨S1x256, .f32⟩ : BufTy).Contents (Elt F) → (⟨S131072x256, .f32⟩ : BufTy).Contents (Elt F)),
    StableHlo.binary main_v20 main_v18 main_v21 (mulf : (⟨S131072x256, .f32⟩ : BufTy).Contents (Elt F) → (⟨S131072x256, .f32⟩ : BufTy).Contents (Elt F) → (⟨S131072x256, .f32⟩ : BufTy).Contents (Elt F)),
    StableHlo.nullary main_cst_1 (constant S_ .f32 0x3727C5AC#32),
    StableHlo.unary main_cst_1 main_v22 (broadcastInDim S256 ![] Facts₀.bcast_S_S256 : (⟨S_, .f32⟩ : BufTy).Contents (Elt F) → (⟨S256, .f32⟩ : BufTy).Contents (Elt F)),
    StableHlo.binary main_arg9 main_v22 main_v23 (addf : (⟨S256, .f32⟩ : BufTy).Contents (Elt F) → (⟨S256, .f32⟩ : BufTy).Contents (Elt F) → (⟨S256, .f32⟩ : BufTy).Contents (Elt F)),
    StableHlo.unary main_v23 main_v24 (Host.rsqrt : (⟨S256, .f32⟩ : BufTy).Contents (Elt F) → (⟨S256, .f32⟩ : BufTy).Contents (Elt F)),
    StableHlo.unary main_v24 main_v25 (broadcastInDim S1x256 ![1] Facts₀.bcast_S256_S1x256_1 : (⟨S256, .f32⟩ : BufTy).Contents (Elt F) → (⟨S1x256, .f32⟩ : BufTy).Contents (Elt F)),
    StableHlo.unary main_v25 main_v26 (broadcastInDim S131072x256 ![0, 1] Facts₀.bcast_S1x256_S131072x256_0_1 : (⟨S1x256, .f32⟩ : BufTy).Contents (Elt F) → (⟨S131072x256, .f32⟩ : BufTy).Contents (Elt F)),
    StableHlo.binary main_v21 main_v26 main_v27 (mulf : (⟨S131072x256, .f32⟩ : BufTy).Contents (Elt F) → (⟨S131072x256, .f32⟩ : BufTy).Contents (Elt F) → (⟨S131072x256, .f32⟩ : BufTy).Contents (Elt F)),
    StableHlo.unary main_arg7 main_v28 (broadcastInDim S1x256 ![1] Facts₀.bcast_S256_S1x256_1 : (⟨S256, .f32⟩ : BufTy).Contents (Elt F) → (⟨S1x256, .f32⟩ : BufTy).Contents (Elt F)),
    StableHlo.unary main_v28 main_v29 (broadcastInDim S131072x256 ![0, 1] Facts₀.bcast_S1x256_S131072x256_0_1 : (⟨S1x256, .f32⟩ : BufTy).Contents (Elt F) → (⟨S131072x256, .f32⟩ : BufTy).Contents (Elt F)),
    StableHlo.binary main_v27 main_v29 main_v30 (addf : (⟨S131072x256, .f32⟩ : BufTy).Contents (Elt F) → (⟨S131072x256, .f32⟩ : BufTy).Contents (Elt F) → (⟨S131072x256, .f32⟩ : BufTy).Contents (Elt F)),
    StableHlo.TRef.nullary main_call1.cst (constant S_ .f32 0x00000000#32),
    StableHlo.TRef.unary main_call1.cst main_call1.v0 (broadcastInDim S131072x256 ![] Facts₀.bcast_S_S131072x256),
    StableHlo.TRef.binary (StableHlo.TRef.of main_v30 : StableHlo.TRef sig ⟨S131072x256, .f32⟩) main_call1.v0 main_call1.v1 maximumf,
    StableHlo.binary main_v31 main_v15 main_v32 ((fun a b => concatenate S131072x512 1 [⟨S131072x256, a⟩, ⟨S131072x256, b⟩] Facts₀.concatenates_S131072x256_S131072x256_S131072x512_d1) : (⟨S131072x256, .f32⟩ : BufTy).Contents (Elt F) → (⟨S131072x256, .f32⟩ : BufTy).Contents (Elt F) → (⟨S131072x512, .f32⟩ : BufTy).Contents (Elt F)),
    StableHlo.unary main_arg10 main_v33 ((transpose S512x256 [1, 0] · Facts₀.transposes_S256x512_S512x256_1_0) : (⟨S256x512, .f32⟩ : BufTy).Contents (Elt F) → (⟨S512x256, .f32⟩ : BufTy).Contents (Elt F)),
    StableHlo.binary main_v32 main_v33 main_v34 ((fun l r => Host.dotGeneral dot_S131072x512_S512x256_S131072x256_1_0_0_1_n_n none l r) : (⟨S131072x512, .f32⟩ : BufTy).Contents (Elt F) → (⟨S512x256, .f32⟩ : BufTy).Contents (Elt F) → (⟨S131072x256, .f32⟩ : BufTy).Contents (Elt F)),
    StableHlo.unary main_arg11 main_v35 (broadcastInDim S1x256 ![1] Facts₀.bcast_S256_S1x256_1 : (⟨S256, .f32⟩ : BufTy).Contents (Elt F) → (⟨S1x256, .f32⟩ : BufTy).Contents (Elt F)),
    StableHlo.unary main_v35 main_v36 (broadcastInDim S131072x256 ![0, 1] Facts₀.bcast_S1x256_S131072x256_0_1 : (⟨S1x256, .f32⟩ : BufTy).Contents (Elt F) → (⟨S131072x256, .f32⟩ : BufTy).Contents (Elt F)),
    StableHlo.binary main_v34 main_v36 main_v37 (addf : (⟨S131072x256, .f32⟩ : BufTy).Contents (Elt F) → (⟨S131072x256, .f32⟩ : BufTy).Contents (Elt F) → (⟨S131072x256, .f32⟩ : BufTy).Contents (Elt F)),
    StableHlo.unary main_arg14 main_v38 (broadcastInDim S1x256 ![1] Facts₀.bcast_S256_S1x256_1 : (⟨S256, .f32⟩ : BufTy).Contents (Elt F) → (⟨S1x256, .f32⟩ : BufTy).Contents (Elt F)),
    StableHlo.unary main_v38 main_v39 (broadcastInDim S131072x256 ![0, 1] Facts₀.bcast_S1x256_S131072x256_0_1 : (⟨S1x256, .f32⟩ : BufTy).Contents (Elt F) → (⟨S131072x256, .f32⟩ : BufTy).Contents (Elt F)),
    StableHlo.binary main_v37 main_v39 main_v40 (subf : (⟨S131072x256, .f32⟩ : BufTy).Contents (Elt F) → (⟨S131072x256, .f32⟩ : BufTy).Contents (Elt F) → (⟨S131072x256, .f32⟩ : BufTy).Contents (Elt F)),
    StableHlo.unary main_arg12 main_v41 (broadcastInDim S1x256 ![1] Facts₀.bcast_S256_S1x256_1 : (⟨S256, .f32⟩ : BufTy).Contents (Elt F) → (⟨S1x256, .f32⟩ : BufTy).Contents (Elt F)),
    StableHlo.unary main_v41 main_v42 (broadcastInDim S131072x256 ![0, 1] Facts₀.bcast_S1x256_S131072x256_0_1 : (⟨S1x256, .f32⟩ : BufTy).Contents (Elt F) → (⟨S131072x256, .f32⟩ : BufTy).Contents (Elt F)),
    StableHlo.binary main_v42 main_v40 main_v43 (mulf : (⟨S131072x256, .f32⟩ : BufTy).Contents (Elt F) → (⟨S131072x256, .f32⟩ : BufTy).Contents (Elt F) → (⟨S131072x256, .f32⟩ : BufTy).Contents (Elt F)),
    StableHlo.nullary main_cst_2 (constant S_ .f32 0x3727C5AC#32),
    StableHlo.unary main_cst_2 main_v44 (broadcastInDim S256 ![] Facts₀.bcast_S_S256 : (⟨S_, .f32⟩ : BufTy).Contents (Elt F) → (⟨S256, .f32⟩ : BufTy).Contents (Elt F)),
    StableHlo.binary main_arg15 main_v44 main_v45 (addf : (⟨S256, .f32⟩ : BufTy).Contents (Elt F) → (⟨S256, .f32⟩ : BufTy).Contents (Elt F) → (⟨S256, .f32⟩ : BufTy).Contents (Elt F)),
    StableHlo.unary main_v45 main_v46 (Host.rsqrt : (⟨S256, .f32⟩ : BufTy).Contents (Elt F) → (⟨S256, .f32⟩ : BufTy).Contents (Elt F)),
    StableHlo.unary main_v46 main_v47 (broadcastInDim S1x256 ![1] Facts₀.bcast_S256_S1x256_1 : (⟨S256, .f32⟩ : BufTy).Contents (Elt F) → (⟨S1x256, .f32⟩ : BufTy).Contents (Elt F)),
    StableHlo.unary main_v47 main_v48 (broadcastInDim S131072x256 ![0, 1] Facts₀.bcast_S1x256_S131072x256_0_1 : (⟨S1x256, .f32⟩ : BufTy).Contents (Elt F) → (⟨S131072x256, .f32⟩ : BufTy).Contents (Elt F)),
    StableHlo.binary main_v43 main_v48 main_v49 (mulf : (⟨S131072x256, .f32⟩ : BufTy).Contents (Elt F) → (⟨S131072x256, .f32⟩ : BufTy).Contents (Elt F) → (⟨S131072x256, .f32⟩ : BufTy).Contents (Elt F)),
    StableHlo.unary main_arg13 main_v50 (broadcastInDim S1x256 ![1] Facts₀.bcast_S256_S1x256_1 : (⟨S256, .f32⟩ : BufTy).Contents (Elt F) → (⟨S1x256, .f32⟩ : BufTy).Contents (Elt F)),
    StableHlo.unary main_v50 main_v51 (broadcastInDim S131072x256 ![0, 1] Facts₀.bcast_S1x256_S131072x256_0_1 : (⟨S1x256, .f32⟩ : BufTy).Contents (Elt F) → (⟨S131072x256, .f32⟩ : BufTy).Contents (Elt F)),
    StableHlo.binary main_v49 main_v51 main_v52 (addf : (⟨S131072x256, .f32⟩ : BufTy).Contents (Elt F) → (⟨S131072x256, .f32⟩ : BufTy).Contents (Elt F) → (⟨S131072x256, .f32⟩ : BufTy).Contents (Elt F)),
    StableHlo.TRef.nullary main_call2.cst (constant S_ .f32 0x00000000#32),
    StableHlo.TRef.unary main_call2.cst main_call2.v0 (broadcastInDim S131072x256 ![] Facts₀.bcast_S_S131072x256),
    StableHlo.TRef.binary (StableHlo.TRef.of main_v52 : StableHlo.TRef sig ⟨S131072x256, .f32⟩) main_call2.v0 main_call2.v1 maximumf,
    StableHlo.unary main_arg16 main_v54 ((transpose S256x2 [1, 0] · Facts₀.transposes_S2x256_S256x2_1_0) : (⟨S2x256, .f32⟩ : BufTy).Contents (Elt F) → (⟨S256x2, .f32⟩ : BufTy).Contents (Elt F)),
    StableHlo.binary main_v53 main_v54 main_v55 ((fun l r => Host.dotGeneral dot_S131072x256_S256x2_S131072x2_1_0_0_1_n_n none l r) : (⟨S131072x256, .f32⟩ : BufTy).Contents (Elt F) → (⟨S256x2, .f32⟩ : BufTy).Contents (Elt F) → (⟨S131072x2, .f32⟩ : BufTy).Contents (Elt F)),
    StableHlo.unary main_arg17 main_v56 (broadcastInDim S1x2 ![1] Facts₀.bcast_S2_S1x2_1 : (⟨S2, .f32⟩ : BufTy).Contents (Elt F) → (⟨S1x2, .f32⟩ : BufTy).Contents (Elt F)),
    StableHlo.unary main_v56 main_v57 (broadcastInDim S131072x2 ![0, 1] Facts₀.bcast_S1x2_S131072x2_0_1 : (⟨S1x2, .f32⟩ : BufTy).Contents (Elt F) → (⟨S131072x2, .f32⟩ : BufTy).Contents (Elt F)),
    StableHlo.binary main_v55 main_v57 main_v58 (addf : (⟨S131072x2, .f32⟩ : BufTy).Contents (Elt F) → (⟨S131072x2, .f32⟩ : BufTy).Contents (Elt F) → (⟨S131072x2, .f32⟩ : BufTy).Contents (Elt F)),
    StableHlo.TRef.nullary main_call3.cst (constant S_ .f32 0x00000000#32),
    StableHlo.TRef.unary main_call3.cst main_call3.v0 (broadcastInDim S131072x2 ![] Facts₀.bcast_S_S131072x2),
    StableHlo.TRef.binary (StableHlo.TRef.of main_v58 : StableHlo.TRef sig ⟨S131072x2, .f32⟩) main_call3.v0 main_call3.v1 maximumf,
    StableHlo.unary main_cst main_v60 (broadcastInDim S1x2 ![1] Facts₀.bcast_S2_S1x2_1 : (⟨S2, .f32⟩ : BufTy).Contents (Elt F) → (⟨S1x2, .f32⟩ : BufTy).Contents (Elt F)),
    StableHlo.unary main_v60 main_v61 (broadcastInDim S131072x2 ![0, 1] Facts₀.bcast_S1x2_S131072x2_0_1 : (⟨S1x2, .f32⟩ : BufTy).Contents (Elt F) → (⟨S131072x2, .f32⟩ : BufTy).Contents (Elt F)),
    StableHlo.binary main_v59 main_v61 main_v62 (minimumf : (⟨S131072x2, .f32⟩ : BufTy).Contents (Elt F) → (⟨S131072x2, .f32⟩ : BufTy).Contents (Elt F) → (⟨S131072x2, .f32⟩ : BufTy).Contents (Elt F)) ]

/- The program and the list are the same chain of steps: sequencing grafts a continuation onto every leaf of a
   finite tree, so both sides compute to one tree, the calls' bodies spliced in where they are called. -/
set_option maxRecDepth 8192 in
set_option maxHeartbeats 1000000 in
theorem main_eq (c : Dev nD) : main (F := F) c = seq ops := by
  rfl

/-- No buffer of the signature is scoped. -/
theorem scopedRefs_eq : (Finset.univ.filter fun b : Ref sig .tc => b.isScoped) = ∅ := by decide
/-- No semaphore of the signature is scoped (there is none). -/
theorem scopedSems_eq : (Finset.univ.filter fun sm : SemLoc sig => sm.isScoped .tc) = ∅ := by decide

/-- Every operation touches buffers of the TensorCore only. -/
theorem ops_sub : (ops : List (HloOp τ sig (Elt F))).Forall fun op => op.bufs ⊆ tcRefs τ sig :=
  ⟨nullary_bufs_sub .., unary_bufs_sub .., unary_bufs_sub .., binary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., nullary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    nullary_bufs_sub .., unary_bufs_sub .., binary_bufs_sub .., binary_bufs_sub .., unary_bufs_sub .., binary_bufs_sub ..,
    unary_bufs_sub .., unary_bufs_sub .., binary_bufs_sub .., unary_bufs_sub .., unary_bufs_sub .., binary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., nullary_bufs_sub .., unary_bufs_sub .., binary_bufs_sub .., unary_bufs_sub .., binary_bufs_sub ..,
    unary_bufs_sub .., unary_bufs_sub .., binary_bufs_sub .., nullary_bufs_sub .., unary_bufs_sub .., binary_bufs_sub ..,
    unary_bufs_sub .., unary_bufs_sub .., binary_bufs_sub ..⟩

/- The result buffer after the 75 operations: reading the fold back from the last operation, a buffer read is the
   writing operation's function of the buffers that one read, and any other operation leaves it as it was (two
   references are equal or not by computation); what is left is the operations composed over the contents at the
   arguments, which is `refTerm` with its layers opened. -/
set_option maxRecDepth 8192 in
set_option maxHeartbeats 8000000 in
theorem out_eq (V : Valuation τ sig (Elt F)) :
    after ops V (main_v62 : DevRef τ sig) = refTerm (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) := by
  after_results_simp
  unfold refTerm hidden fused bn relu relu2 rows rows2
  rfl

/-- The buffers the 75 operations write, in order: each operation writes its own result buffer and nothing else. -/
abbrev written : List (Ref sig .tc) :=
  [ main_cst, main_v0, main_v1, main_v2, main_v3, main_v4, main_v5, main_cst_0, main_v6, main_v7, main_v8, main_v9,
    main_v10, main_v11, main_v12, main_v13, main_v14, main_call0.cst.ref, main_call0.v0.ref, main_call0.v1.ref,
    main_v16, main_v17, main_v18, main_v19, main_v20, main_v21, main_cst_1, main_v22, main_v23, main_v24, main_v25,
    main_v26, main_v27, main_v28, main_v29, main_v30, main_call1.cst.ref, main_call1.v0.ref, main_call1.v1.ref,
    main_v32, main_v33, main_v34, main_v35, main_v36, main_v37, main_v38, main_v39, main_v40, main_v41, main_v42,
    main_v43, main_cst_2, main_v44, main_v45, main_v46, main_v47, main_v48, main_v49, main_v50, main_v51, main_v52,
    main_call2.cst.ref, main_call2.v0.ref, main_call2.v1.ref, main_v54, main_v55, main_v56, main_v57, main_v58,
    main_call3.cst.ref, main_call3.v0.ref, main_call3.v1.ref, main_v60, main_v61, main_v62 ]

theorem ops_writes : (ops : List (HloOp τ sig (Elt F))).Forall fun op =>
    op.writes ⊆ (written.map (Proc.devRef (τ := τ) .tc)).toFinset := by
  simp only [List.Forall, nullary_writes, unary_writes, binary_writes, Finset.singleton_subset_iff, List.mem_toFinset]
  repeat' apply And.intro
  all_goals exact List.mem_map_of_mem (by decide)

/-- A buffer none of the operations writes keeps its contents: the arguments are such buffers. -/
theorem keep (V : Valuation τ sig (Elt F)) {r : Ref sig .tc} (h : r ∉ written) :
    after ops V (Proc.devRef .tc r) = V (Proc.devRef .tc r) :=
  after_of_writes_sub ops V ops_writes h

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v62) = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨(h c main_v62).trans (out_eq _),
      (h c main_arg0).trans (keep _ (by decide)),
      (h c main_arg1).trans (keep _ (by decide)),
      (h c main_arg2).trans (keep _ (by decide)),
      (h c main_arg3).trans (keep _ (by decide)),
      (h c main_arg4).trans (keep _ (by decide)),
      (h c main_arg5).trans (keep _ (by decide)),
      (h c main_arg6).trans (keep _ (by decide)),
      (h c main_arg7).trans (keep _ (by decide)),
      (h c main_arg8).trans (keep _ (by decide)),
      (h c main_arg9).trans (keep _ (by decide)),
      (h c main_arg10).trans (keep _ (by decide)),
      (h c main_arg11).trans (keep _ (by decide)),
      (h c main_arg12).trans (keep _ (by decide)),
      (h c main_arg13).trans (keep _ (by decide)),
      (h c main_arg14).trans (keep _ (by decide)),
      (h c main_arg15).trans (keep _ (by decide)),
      (h c main_arg16).trans (keep _ (by decide)),
      (h c main_arg17).trans (keep _ (by decide))⟩)
    (run_seq scopedRefs_eq scopedSems_eq defs main (fun _ => ops) main_eq (fun _ => ops_sub) m ρ)

end Cert.ReferenceIdeal.RefValue

end
-- ==== Proof.RefIsSpec.lean ====
/-
  The reference's composed term IS the row function of `Spec`, index by index.
-/
import proofs.«106597_j24541443129392_1_alg».proof.Proof.RefTerm
import proofs.«106597_j24541443129392_1_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost
import Idealize.ShloMosaic.Lib.StackMember
import Idealize.ShloMosaic.PureOps.Ideal.Laws

noncomputable section

namespace Cert.ReferenceIdeal.RefValue

open Cert.ReferenceIdeal Idealize.ShloMosaic Idealize.ShloMosaic.ValueIdx

open Facts₀

/-! ## The layers, read at one entry

An entry of a 131072-row array is addressed by its row `r` and its column; a parameter vector by its one column. -/

/-- A vector of 256 entries laid along every row: entry (r, q) is entry q of the vector. The vector is first made
    a single row (column q of that row is entry q, 256 not being 1), and every row of the result is that row. -/
theorem rows_apply (p : FVec Ideal S256 .f32) (r : Fin 131072) (q : Fin 256) :
    rows p (ix2 r q) = p (ix1 q) := by
  unfold rows
  rw [broadcastInDim_oneRow_apply]
  refine broadcastInDim_apply ![1] _ p (ix2 (0 : Fin 1) q) (ix1 q) ?_
  intro a
  match a with
  | ⟨0, _⟩ =>
    show q.val = if (256 : ℕ) = 1 then 0 else q.val
    simp

/-- The same for a vector of 2 entries. -/
theorem rows2_apply (p : FVec Ideal S2 .f32) (r : Fin 131072) (q : Fin 2) :
    rows2 p (ix2 r q) = p (ix1 q) := by
  unfold rows2
  rw [broadcastInDim_oneRow_apply]
  refine broadcastInDim_apply ![1] _ p (ix2 (0 : Fin 1) q) (ix1 q) ?_
  intro a
  match a with
  | ⟨0, _⟩ =>
    show q.val = if (2 : ℕ) = 1 then 0 else q.val
    simp

/-- Batch normalisation at entry (r, q): `g q · (x (r, q) − μ q) · rsqrt (v q + ε) + b q`. Sum, product and difference
    of arrays are taken entry by entry, each parameter is read at its column, and the reciprocal square root of the
    array `v + ε` is the reciprocal square root of its entry. -/
theorem bn_apply (x : FVec Ideal S131072x256 .f32) (g b mu v : FVec Ideal S256 .f32) (r : Fin 131072) (q : Fin 256) :
    bn x g b mu v (ix2 r q)
      = g (ix1 q) * (x (ix2 r q) - mu (ix1 q)) * Ideal.rsqrt (v (ix1 q) + Cert.Spec.eps) + b (ix1 q) := by
  unfold bn
  rw [addf_apply, mulf_apply, mulf_apply, subf_apply, rows_apply, rows_apply, rows_apply, rows_apply]
  rfl

/-- Rectification at an entry: the maximum of the entry and zero (the zero array reads zero everywhere). -/
theorem relu_apply (x : FVec Ideal S131072x256 .f32) (j : S131072x256.Idx) :
    relu x j = max (x j) Cert.Spec.zero := rfl

/-- The same for a two-column array. -/
theorem relu2_apply (x : FVec Ideal S131072x2 .f32) (j : S131072x2.Idx) :
    relu2 x j = max (x j) Cert.Spec.zero := rfl

/-- Below column 256 the fused array is the rectified, normalised frame array at the same column … -/
theorem fused_apply_left (a0 a1 : FVec Ideal S131072x256 .f32) (a2 a3 a4 a5 a6 a7 a8 a9 : FVec Ideal S256 .f32)
    (r : Fin 131072) (k : Fin 512) (h : k.val < 256) :
    fused a0 a1 a2 a3 a4 a5 a6 a7 a8 a9 (ix2 r k) = relu (bn a0 a6 a7 a8 a9) (ix2 r (⟨k.val, h⟩ : Fin 256)) := by
  unfold fused
  refine concatenate_pair_apply_left (t := S131072x512) (s₁ := S131072x256) (s₂ := S131072x256) (1 : Fin 2) _ _ _ _ rfl
    (ix2 r (⟨k.val, h⟩ : Fin 256)) ?_
  intro b
  match b with
  | ⟨0, _⟩ => rfl
  | ⟨1, _⟩ => rfl

/-- … and from column 256 on it is the rectified, normalised inertial array at the column less 256: the row is kept,
    and the column is the second piece's column plus the first piece's 256 columns. -/
theorem fused_apply_right (a0 a1 : FVec Ideal S131072x256 .f32) (a2 a3 a4 a5 a6 a7 a8 a9 : FVec Ideal S256 .f32)
    (r : Fin 131072) (k : Fin 512) (h : ¬ k.val < 256) :
    fused a0 a1 a2 a3 a4 a5 a6 a7 a8 a9 (ix2 r k)
      = relu (bn a1 a2 a3 a4 a5) (ix2 r (⟨k.val - 256, by omega⟩ : Fin 256)) := by
  unfold fused
  refine concatenate_pair_apply_right (t := S131072x512) (s₁ := S131072x256) (s₂ := S131072x256) (1 : Fin 2) _ _ _ _ rfl rfl
    (ix2 r (⟨k.val - 256, by omega⟩ : Fin 256)) ?_ ?_
  · intro b hb
    match b with
    | ⟨0, _⟩ => rfl
    | ⟨1, _⟩ => exact absurd rfl hb
  · show k.val - 256 + 256 = k.val
    omega

/-- The first dense layer's dimension numbers are those of the plain product of a 131072 × 512 by a 512 × 256 matrix:
    the same six lists of axes (the well-formedness proofs are proofs of one proposition). -/
theorem dot1_eq : dot_S131072x512_S512x256_S131072x256_1_0_0_1_n_n = DotDims.plain 131072 512 256 := rfl

/-- The second dense layer's are those of the plain product of a 131072 × 256 by a 256 × 2 matrix. -/
theorem dot2_eq : dot_S131072x256_S256x2_S131072x2_1_0_0_1_n_n = DotDims.plain 131072 256 2 := rfl

/-- The first product at (r, j): the sum over the 512 contracted columns k of `l (r, k) · w (k, j)`. -/
theorem dot1_apply (l : FVec Ideal S131072x512 .f32) (w : FVec Ideal S512x256 .f32) (r : Fin 131072) (j : Fin 256) :
    Host.dotGeneral dot_S131072x512_S512x256_S131072x256_1_0_0_1_n_n none l w (ix2 r j)
      = ∑ k : Fin 512, l (ix2 r k) * w (ix2 k j) := by
  rw [dot1_eq]
  exact StackMember.dotGeneral_plain_apply none l w r j

/-- The second product at (r, o): the sum over the 256 contracted columns j of `l (r, j) · w (j, o)`. -/
theorem dot2_apply (l : FVec Ideal S131072x256 .f32) (w : FVec Ideal S256x2 .f32) (r : Fin 131072) (o : Fin 2) :
    Host.dotGeneral dot_S131072x256_S256x2_S131072x2_1_0_0_1_n_n none l w (ix2 r o)
      = ∑ j : Fin 256, l (ix2 r j) * w (ix2 j o) := by
  rw [dot2_eq]
  exact StackMember.dotGeneral_plain_apply none l w r o

/-- The literal vector of caps at entry o is the cap of output o: the vector's row-major position of entry o is o, and
    the two words are the specification's two words. -/
theorem cap_apply (o : Fin 2) :
    (FloatOps.ofBits .f32 (lit0 (S2.rowMajor (ix1 o))) : Ideal .f32) = Ideal.ofBits .f32 (Cert.Spec.capWord o) := by
  fin_cases o <;> rfl

/-! ## The layers are the specification's rows -/

/-- Entry (r, k) of the fused array is entry k of the specification's fused row of row r: on each side of column 256
    the same normalised, rectified entry, with the parameters read at the same column. -/
theorem fused_eq (a0 a1 : FVec Ideal S131072x256 .f32) (a2 a3 a4 a5 a6 a7 a8 a9 : FVec Ideal S256 .f32) (a10 : FVec Ideal S256x512 .f32)
    (a11 a12 a13 a14 a15 : FVec Ideal S256 .f32) (a16 : FVec Ideal S2x256 .f32) (a17 : FVec Ideal S2 .f32)
    (r : Fin 131072) (k : Fin 512) :
    fused a0 a1 a2 a3 a4 a5 a6 a7 a8 a9 (ix2 r k)
      = Cert.Spec.fusedRow (Cert.Spec.argParams a2 a3 a4 a5 a6 a7 a8 a9 a10 a11 a12 a13 a14 a15 a16 a17)
          (fun q => a0 (ix2 r q)) (fun q => a1 (ix2 r q)) k := by
  unfold Cert.Spec.fusedRow
  by_cases h : k.val < 256
  · rw [dif_pos h, fused_apply_left a0 a1 a2 a3 a4 a5 a6 a7 a8 a9 r k h, relu_apply, bn_apply]
    rfl
  · rw [dif_neg h, fused_apply_right a0 a1 a2 a3 a4 a5 a6 a7 a8 a9 r k h, relu_apply, bn_apply]
    rfl

/-- Entry (r, j) of the hidden array is entry j of the specification's hidden row of row r: the dense layer's sum
    runs over the same 512 columns, its weight `W0ᵀ (k, j)` is `W0 (j, k)`, and the bias, the normalisation and the
    rectification are read at column j. -/
theorem hidden_eq (a0 a1 : FVec Ideal S131072x256 .f32) (a2 a3 a4 a5 a6 a7 a8 a9 : FVec Ideal S256 .f32) (a10 : FVec Ideal S256x512 .f32)
    (a11 a12 a13 a14 a15 : FVec Ideal S256 .f32) (a16 : FVec Ideal S2x256 .f32) (a17 : FVec Ideal S2 .f32)
    (r : Fin 131072) (j : Fin 256) :
    hidden a0 a1 a2 a3 a4 a5 a6 a7 a8 a9 a10 a11 a12 a13 a14 a15 (ix2 r j)
      = Cert.Spec.hiddenRow (Cert.Spec.argParams a2 a3 a4 a5 a6 a7 a8 a9 a10 a11 a12 a13 a14 a15 a16 a17)
          (fun q => a0 (ix2 r q)) (fun q => a1 (ix2 r q)) j := by
  unfold hidden
  rw [relu_apply, bn_apply, addf_apply, dot1_apply, rows_apply]
  have hs : (∑ k : Fin 512, fused a0 a1 a2 a3 a4 a5 a6 a7 a8 a9 (ix2 r k)
        * transpose S512x256 [1, 0] a10 transposes_S256x512_S512x256_1_0 (ix2 k j))
      = ∑ k : Fin 512, Cert.Spec.fusedRow (Cert.Spec.argParams a2 a3 a4 a5 a6 a7 a8 a9 a10 a11 a12 a13 a14 a15 a16 a17)
          (fun q => a0 (ix2 r q)) (fun q => a1 (ix2 r q)) k
        * (Cert.Spec.argParams a2 a3 a4 a5 a6 a7 a8 a9 a10 a11 a12 a13 a14 a15 a16 a17).w0 j k :=
    Finset.sum_congr rfl fun k _ => by
      rw [fused_eq a0 a1 a2 a3 a4 a5 a6 a7 a8 a9 a10 a11 a12 a13 a14 a15 a16 a17 r k, transpose_ix2_apply]
      rfl
  rw [hs]
  rfl

/-- The reference's result at (r, o) is output o of the specification's row r: the second dense layer's sum runs over
    the 256 hidden columns with weight `W1ᵀ (j, o) = W1 (o, j)`, the bias and the cap are read at o, and the
    rectification and the cap are the maximum with zero and the minimum with the cap. -/
theorem refTerm_eq (a0 a1 : FVec Ideal S131072x256 .f32) (a2 a3 a4 a5 a6 a7 a8 a9 : FVec Ideal S256 .f32) (a10 : FVec Ideal S256x512 .f32)
    (a11 a12 a13 a14 a15 : FVec Ideal S256 .f32) (a16 : FVec Ideal S2x256 .f32) (a17 : FVec Ideal S2 .f32) :
    refTerm (F := Ideal) a0 a1 a2 a3 a4 a5 a6 a7 a8 a9 a10 a11 a12 a13 a14 a15 a16 a17
      = Cert.Spec.G (Cert.Spec.argParams a2 a3 a4 a5 a6 a7 a8 a9 a10 a11 a12 a13 a14 a15 a16 a17) a0 a1 := by
  funext i
  obtain ⟨r, o, rfl⟩ : ∃ (r : Fin 131072) (o : Fin 2), i = ix2 r o := ⟨i 0, i 1, eq_ix2 i⟩
  unfold refTerm
  rw [minimumf_apply, relu2_apply, addf_apply, dot2_apply, rows2_apply, rows2_apply, cap_apply]
  have hs : (∑ j : Fin 256, hidden a0 a1 a2 a3 a4 a5 a6 a7 a8 a9 a10 a11 a12 a13 a14 a15 (ix2 r j)
        * transpose S256x2 [1, 0] a16 transposes_S2x256_S256x2_1_0 (ix2 j o))
      = ∑ j : Fin 256, Cert.Spec.hiddenRow (Cert.Spec.argParams a2 a3 a4 a5 a6 a7 a8 a9 a10 a11 a12 a13 a14 a15 a16 a17)
          (fun q => a0 (ix2 r q)) (fun q => a1 (ix2 r q)) j
        * (Cert.Spec.argParams a2 a3 a4 a5 a6 a7 a8 a9 a10 a11 a12 a13 a14 a15 a16 a17).w1 o j :=
    Finset.sum_congr rfl fun j _ => by
      rw [hidden_eq a0 a1 a2 a3 a4 a5 a6 a7 a8 a9 a10 a11 a12 a13 a14 a15 a16 a17 r j, transpose_ix2_apply]
      rfl
  rw [hs]
  rfl

end Cert.ReferenceIdeal.RefValue

end
-- ==== Proof.lean ====
/-
  The certificate of the fused encoder head.  Both programs take two feature arrays of 131072 rows and 256 columns
  (frame and inertial) and sixteen small parameter arrays, and compute, row by row: batch-normalise and rectify each
  feature row with its own per-column parameters, lay the two rectified rows side by side (frame first) into 512
  entries, apply a dense layer 512 → 256, normalise and rectify again, apply a dense layer 256 → 2, rectify, and cap
  the two outputs at 512 and 384.  The kernel does this on blocks of 1024 rows with the weights transposed beforehand
  and its matrix products accumulated from zero; the reference on the whole arrays with the host's matrix product.  Over
  the extended reals a change of float format is the identity, the kernel's product into a zero accumulator and the
  host's product are the same sum over the contracted column, and every other operation is printed identically, so
  both result arrays are ONE function of the arguments, `Spec.G`: row `r` of the result is `Spec.outRow` of row `r`
  of the two feature arrays.  No algebraic law beyond reading the operations at an index is used, so finiteness of
  the inputs is never opened.

  Spec.lean        the row function and the whole-array function `G`.
  KernelPay.lean   one entry of the block the kernel's body stores is `outRow` of that row of its blocks.
  KernelValue.lean the blocks are rows of the arguments, the 128 blocks tile the result: the kernel's result is `G`.
  RefTerm.lean     the reference's host operations composed into one term;  RefRun.lean  its run ends at that term;
  RefIsSpec.lean   that term, read index by index, is `G`.
  Here: the three frames (the kernels' from the generated frame certificates, the reference's from its run), the
  idealization's empty ledger, and the equivalence.
-/
import proofs.«106597_j24541443129392_1_alg».proof.Defs
import proofs.«106597_j24541443129392_1_alg».proof.Proof.Gen.Kernel
import proofs.«106597_j24541443129392_1_alg».proof.Proof.Gen.Kernel.Skeleton
import proofs.«106597_j24541443129392_1_alg».proof.Proof.Gen.Kernel.Launch
import proofs.«106597_j24541443129392_1_alg».proof.Proof.Gen.Kernel.Points
import proofs.«106597_j24541443129392_1_alg».proof.Proof.Gen.Kernel.Frame
import proofs.«106597_j24541443129392_1_alg».proof.Proof.Gen.KernelIdeal
import proofs.«106597_j24541443129392_1_alg».proof.Proof.Gen.KernelIdeal.Skeleton
import proofs.«106597_j24541443129392_1_alg».proof.Proof.Gen.KernelIdeal.Launch
import proofs.«106597_j24541443129392_1_alg».proof.Proof.Gen.KernelIdeal.Points
import proofs.«106597_j24541443129392_1_alg».proof.Proof.Gen.KernelIdeal.Frame
import proofs.«106597_j24541443129392_1_alg».proof.Proof.Gen.KernelIdeal.Value
import proofs.«106597_j24541443129392_1_alg».proof.Proof.Gen.ReferenceIdeal
import proofs.«106597_j24541443129392_1_alg».proof.Proof.Gen.Pre_finite_inputs
import proofs.«106597_j24541443129392_1_alg».proof.Proof.KernelValue
import proofs.«106597_j24541443129392_1_alg».proof.Proof.RefRun
import proofs.«106597_j24541443129392_1_alg».proof.Proof.RefIsSpec
import Idealize.ShloMosaic.Adequacy
import Idealize.ShloMosaic.Init

noncomputable section

namespace Cert.Proof

open Idealize.ShloMosaic Idealize.SL.Sem

/-- The word-level kernel runs and keeps its arguments: the generated frame certificate. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.RefValue.run (F := Ideal) m ρ)

/-- The ideal pass rewrote nothing: no conjunct to state. -/
theorem preserves : Cert.preserves_Kernel_KernelIdeal := trivial

/-- From memories that agree on the arguments the kernel's result array ends at `Spec.G` of its arguments and the
    reference's at its composed term, which is `Spec.G` of the same arguments. -/
theorem algebraic : Cert.algebraic_KernelIdeal_ReferenceIdeal := by
  intro m ρ m' ρ' _ hagree
  refine ⟨fun c => Cert.KernelIdeal.Hand.Gm m c, Cert.KernelIdeal.Hand.run m ρ, ?_⟩
  refine (θ_run Cert.ReferenceIdeal.defs _ _).mono (fun _ h c => ⟨(h c).1.trans ?_, (h c).2⟩)
    (Cert.ReferenceIdeal.RefValue.run (F := Ideal) m' ρ')
  rw [Cert.ReferenceIdeal.RefValue.refTerm_eq]
  obtain ⟨h0, h1, h2, h3, h4, h5, h6, h7, h8, h9, h10, h11, h12, h13, h14, h15, h16, h17⟩ := hagree c
  rw [h0, h1, h2, h3, h4, h5, h6, h7, h8, h9, h10, h11, h12, h13, h14, h15, h16, h17]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
